-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S16x1024x1024x4 : Shape := ⟨4, ![16, 1024, 1024, 4]⟩
abbrev S4 : Shape := ⟨1, ![4]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S16x1024x1024x4 : S_.BroadcastsInDim S16x1024x1024x4 (![] : Fin 0 → Fin S16x1024x1024x4.rank)
  reducesTo_S16x1024x1024x4_S_d0_1_2_3 : S16x1024x1024x4.ReducesTo [0, 1, 2, 3] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v15 : IVec S4 1) (main_c_5 : IVec S_ 1) : IVec S_ 1 :=
  let main_v16 : IVec S_ 1 := (fun x v => Host.reduce IntOp.andi x v reducesTo_S4_S_d0 h_S_) main_v15 main_c_5
  let main_v17 : IVec S_ 1 := andi main_v13 main_v16
  main_v17

def fn {F : FTy → Type} [FloatOps F] (main_arg0 : FVec F S16x1024x256 .f32) (main_arg1 : FVec F S16x1024x1024x4 .f32) (main_arg2 : FVec F S4 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S16x1024x1024x4 .f32 := Host.absf main_arg1
  let main_cst_0 : FVec F S_ .f32 := constant S_ .f32 0x7F800000#32
  let main_v5 : FVec F S16x1024x1024x4 .f32 := broadcastInDim S16x1024x1024x4 ![] bcast_S_S16x1024x1024x4 main_cst_0
  let main_v6 : IVec S16x1024x1024x4 1 := cmpf .olt main_v4 main_v5
  let main_c_1 : IVec S_ 1 := constantI S_ 1 1#1
  let main_v7 : IVec S_ 1 := (fun x v => Host.reduce IntOp.andi x v reducesTo_S16x1024x1024x4_S_d0_1_2_3 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_cst_4 : FVec F S_ .f32 := constant S_ .f32 0x00000000#32
  let main_v14 : FVec F S4 .f32 := broadcastInDim S4 ![] bcast_S_S4 main_cst_4
  let main_v15 : IVec S4 1 := cmpf .une main_arg2 main_v14
  let main_c_5 : IVec S_ 1 := constantI S_ 1 1#1
  fn_part1 (F := F) main_v13 main_v15 main_c_5
-- ==== Kernel.lean ====
abbrev S16x1024x256 : Shape := ⟨3, ![16, 1024, 256]⟩
abbrev S16x1024x1024x4 : Shape := ⟨4, ![16, 1024, 1024, 4]⟩
abbrev S4 : Shape := ⟨1, ![4]⟩
abbrev S_ : Shape := ⟨0, ![]⟩
abbrev S4x1 : Shape := ⟨2, ![4, 1]⟩
abbrev S16x1024x4x1024 : Shape := ⟨4, ![16, 1024, 4, 1024]⟩
abbrev S16x1024x1 : Shape := ⟨3, ![16, 1024, 1]⟩
abbrev S1x128x4x1024 : Shape := ⟨4, ![1, 128, 4, 1024]⟩
abbrev S1x1024x256 : Shape := ⟨3, ![1, 1024, 256]⟩
abbrev S1x128x256 : Shape := ⟨3, ![1, 128, 256]⟩
abbrev S1x128x1 : Shape := ⟨3, ![1, 128, 1]⟩
abbrev S128x4x1024 : Shape := ⟨3, ![128, 4, 1024]⟩
abbrev S1x4x1 : Shape := ⟨3, ![1, 4, 1]⟩
abbrev S128x1024 : Shape := ⟨2, ![128, 1024]⟩
abbrev S128 : Shape := ⟨1, ![128]⟩
abbrev S128x1 : Shape := ⟨2, ![128, 1]⟩
abbrev S1024x256 : Shape := ⟨2, ![1024, 256]⟩
abbrev S128x256 : Shape := ⟨2, ![128, 256]⟩

abbrev nBuf : Space → Nat
  | .hbm => 17
  | .vmem => 9
  | .smem => 0
  | _ => 0

abbrev bufTy : (tb : Table) → Fin (tcTables nBuf tb) → BufTy
  | .hbm, ⟨0, _⟩ => ⟨S16x1024x256, .f32⟩
  | .hbm, ⟨1, _⟩ => ⟨S16x1024x1024x4, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S4, .f32⟩
  | .hbm, ⟨7, _⟩ => ⟨S_, .f32⟩
  | .hbm, ⟨8, _⟩ => ⟨S4, .f32⟩
  | .hbm, ⟨9, _⟩ => ⟨S4, .f32⟩
  | .hbm, ⟨10, _⟩ => ⟨S4x1, .f32⟩
  | .hbm, ⟨11, _⟩ => ⟨S16x1024x4x1024, .f32⟩
  | .hbm, ⟨12, _⟩ => ⟨S16x1024x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S4x1, .f32⟩
  | .local _ .vmem, ⟨1, _⟩ => ⟨S1x128x4x1024, .f32⟩
  | .local _ .vmem, ⟨2, _⟩ => ⟨S1x128x4x1024, .f32⟩
  | .local _ .vmem, ⟨3, _⟩ => ⟨S1x1024x256, .f32⟩
  | .local _ .vmem, ⟨4, _⟩ => ⟨S1x1024x256, .f32⟩
  | .local _ .vmem, ⟨5, _⟩ => ⟨S1x128x256, .f32⟩
  | .local _ .vmem, ⟨6, _⟩ => ⟨S1x128x256, .f32⟩
  | .local _ .vmem, ⟨7, _⟩ => ⟨S1x128x1, .f32⟩
  | .local _ .vmem, ⟨8, _⟩ => ⟨S1x128x1, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S4x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S4 : S_.BroadcastsInDim S4 (![] : Fin 0 → Fin S4.rank)
  shapeCasts_S4_S4x1 : S4.ShapeCasts S4x1
  transposes_S16x1024x1024x4_S16x1024x4x1024_0_1_3_2 : S16x1024x1024x4.Transposes [0, 1, 3, 2] S16x1024x4x1024
  inb_S1x128x4x1024_S1x128x4x1024_0_0_0_0 : ∀ a, (![0, 0, 0, 0] : Fin 4 → Nat) a + S1x128x4x1024.size a ≤ S1x128x4x1024.size a
  h_S1x128x4x1024 : 0 < S1x128x4x1024.numel
  shapeCasts_S1x128x4x1024_S128x4x1024 : S1x128x4x1024.ShapeCasts S128x4x1024
  inb_S4x1_S4x1_0_0 : ∀ a, (![0, 0] : Fin 2 → Nat) a + S4x1.size a ≤ S4x1.size a
  h_S4x1 : 0 < S4x1.numel
  shapeCasts_S4x1_S4x1 : S4x1.ShapeCasts S4x1
  shapeCasts_S4x1_S1x4x1 : S4x1.ShapeCasts S1x4x1
  broadcasts_S1x4x1_S128x4x1024 : S1x4x1.Broadcasts S128x4x1024
  reduces_S128x4x1024_S128x1024 : S128x4x1024.Reduces [1] S128x1024
  reduces_S128x1024_S128 : S128x1024.Reduces [1] S128
  shapeCasts_S128_S128x1 : S128.ShapeCasts S128x1
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  reduces_S128x256_S128 : S128x256.Reduces [1] S128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  reducesTo_S16x1024x1_S_d0_1_2 : S16x1024x1.ReducesTo [0, 1, 2] S_
  h_S_ : 0 < S_.numel
  dot_S128x1024_S1024x256_S128x256_1_0_0_1_n_n_wf : DotDims.WF S128x1024 S1024x256 S128x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x1.size a ≤ S4x1.size a
  hwx0_0 : ∀ i : grid0.Coords, EltTy.bits .f32 = 32 ∨ (Rect.block (s := S4x1) S4x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4x1024.size a ≤ S16x1024x4x1024.size a
  hwx0_1 : ∀ i : grid0.Coords, EltTy.bits .f32 = 32 ∨ (Rect.block (s := S16x1024x4x1024) S1x128x4x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S16x1024x256.size a
  hwx0_2 : ∀ i : grid0.Coords, EltTy.bits .f32 = 32 ∨ (Rect.block (s := S16x1024x256) S1x1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x256.size a ≤ S16x1024x256.size a
  hwx0_3 : ∀ i : grid0.Coords, EltTy.bits .f32 = 32 ∨ (Rect.block (s := S16x1024x256) S1x128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S16x1024x1.size a
  hwx0_4 : ∀ i : grid0.Coords, EltTy.bits .f32 = 32 ∨ (Rect.block (s := S16x1024x1) S1x128x1.size (cc0_transform_4 i) (hinb0_4 i)).WholeWords (EltTy.packing .f32)

variable [Facts₀]

def dot_S128x1024_S1024x256_S128x256_1_0_0_1_n_n : DotDims S128x1024 S1024x256 S128x256 where
  lhsContracting := [1]
  rhsContracting := [0]
  lhsNonContracting := [0]
  rhsNonContracting := [1]
  lhsBatch := []
  rhsBatch := []
  wf := dot_S128x1024_S1024x256_S128x256_1_0_0_1_n_n_wf

abbrev win0_0 : Pipeline.Window sig grid0 :=
  Pipeline.Window.ofSpec (Memref.whole main_v5) S4x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x128x4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x128x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x1024x256 : Shape := ⟨3, ![16, 1024, 256]⟩
abbrev S16x1024x1024x4 : Shape := ⟨4, ![16, 1024, 1024, 4]⟩
abbrev S4 : Shape := ⟨1, ![4]⟩
abbrev S_ : Shape := ⟨0, ![]⟩
abbrev S1x1x1x4 : Shape := ⟨4, ![1, 1, 1, 4]⟩
abbrev S16x1024x1024 : Shape := ⟨3, ![16, 1024, 1024]⟩
abbrev S16x1024 : Shape := ⟨2, ![16, 1024]⟩
abbrev S16 : Shape := ⟨1, ![16]⟩

abbrev nBuf : Space → Nat
  | .hbm => 41
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S16x1024x1024x4, .f32⟩
  | .hbm, ⟨2, _⟩ => ⟨S4, .f32⟩
  | .hbm, ⟨3, _⟩ => ⟨S_, .f32⟩
  | .hbm, ⟨4, _⟩ => ⟨S4, .f32⟩
  | .hbm, ⟨5, _⟩ => ⟨S4, .f32⟩
  | .hbm, ⟨6, _⟩ => ⟨S4, .f32⟩
  | .hbm, ⟨7, _⟩ => ⟨S16x1024x1024x4, .f32⟩
  | .hbm, ⟨8, _⟩ => ⟨S1x1x1x4, .f32⟩
  | .hbm, ⟨9, _⟩ => ⟨S16x1024x1024x4, .f32⟩
  | .hbm, ⟨10, _⟩ => ⟨S16x1024x1024x4, .f32⟩
  | .hbm, ⟨11, _⟩ => ⟨S_, .f32⟩
  | .hbm, ⟨12, _⟩ => ⟨S16x1024x1024, .f32⟩
  | .hbm, ⟨13, _⟩ => ⟨S16x1024x1024, .f32⟩
  | .hbm, ⟨14, _⟩ => ⟨S16x1024x256, .f32⟩
  | .hbm, ⟨15, _⟩ => ⟨S_, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024x256, .f32⟩
  | .hbm, ⟨20, _⟩ => ⟨S16x1024, .f32⟩
  | .hbm, ⟨21, _⟩ => ⟨S_, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16x1024x256, .f32⟩
  | .hbm, ⟨27, _⟩ => ⟨S_, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S16, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_cst_8 : Ref sig .tc := ⟨.hbm, 35, rfl⟩
abbrev main_v23 : Ref sig .tc := ⟨.hbm, 36, rfl⟩
abbrev main_cst_9 : Ref sig .tc := ⟨.hbm, 37, rfl⟩
abbrev main_cst_10 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S4_S1x1x1x4_3 : S4.BroadcastsInDim S1x1x1x4 (![3] : Fin 1 → Fin S1x1x1x4.rank)
  bcast_S1x1x1x4_S16x1024x1024x4_0_1_2_3 : S1x1x1x4.BroadcastsInDim S16x1024x1024x4 (![0, 1, 2, 3] : Fin 4 → Fin S16x1024x1024x4.rank)
  reducesTo_S16x1024x1024x4_S16x1024x1024_d3 : S16x1024x1024x4.ReducesTo [3] S16x1024x1024
  h_S_ : 0 < S_.numel
  reducesTo_S16x1024x256_S16x1024_d2 : S16x1024x256.ReducesTo [2] S16x1024
  reducesTo_S16x1024x1024_S16x1024_d2 : S16x1024x1024.ReducesTo [2] S16x1024
  reducesTo_S16x1024_S16_d1 : S16x1024.ReducesTo [1] S16
  bcast_S_S16 : S_.BroadcastsInDim S16 (![] : Fin 0 → Fin S16.rank)
  reducesTo_S16x1024x256_S16_d1_2 : S16x1024x256.ReducesTo [1, 2] S16
  reducesTo_S16_S_d0 : S16.ReducesTo [0] S_
  dot_S16x1024x1024_S16x1024x256_S16x1024x256_2_1_1_2_0_0_wf : DotDims.WF S16x1024x1024 S16x1024x256 S16x1024x256 [2] [1] [1] [2] [0] [0]

variable [Facts₀]

def dot_S16x1024x1024_S16x1024x256_S16x1024x256_2_1_1_2_0_0 : DotDims S16x1024x1024 S16x1024x256 S16x1024x256 where
  lhsContracting := [2]
  rhsContracting := [1]
  lhsNonContracting := [1]
  rhsNonContracting := [2]
  lhsBatch := [0]
  rhsBatch := [0]
  wf := dot_S16x1024x1024_S16x1024x256_S16x1024x256_2_1_1_2_0_0_wf

class Facts : Prop extends Facts₀ where

variable [Facts]
-- ==== Proof.KbBody.lean ====
/-
  The word-level kernel's body, one grid point at a time.

  At grid point (b, q) the kernel holds five staging buffers: the four reciprocals 1 / (2 σ_k σ_k) (a column of
  four), the 128 query rows q·128 … q·128 + 127 of batch b of the swapped distances (128 × 4 × 1024), all 1024 rows
  of z for batch b (the keys), the 128 query rows of z, and the 128 × 1 output block. The body reads the four inputs
  (and, idly, the output block), computes one number per query row, and overwrites the whole output block with them.
  So after the body the output block is one function, `rowBlock`, of the four input blocks, and the input blocks are
  as they were. Both input windows 2 and 3 are blocks of the same array z.
-/
import proofs.«177375_j43052752175789_1_alg».proof.Proof.Gen.Kernel.Launch
import proofs.«177375_j43052752175789_1_alg».proof.Proof.Gen.Kernel.Skeleton
import proofs.«177375_j43052752175789_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation of the host operations; -/
abbrev W0 (c : Dev nD) : Valuation τ sig (Elt F) := fun b => m (c, b)
/-- and after the nine host operations before the call (the reciprocals, the swapped distances). -/
abbrev W1 (c : Dev nD) : Valuation τ sig (Elt F) := StableHlo.after hostOps0 (W0 m c)
/-- The same read at the TensorCore's references: what the region finds. -/
abbrev V (c : Dev nD) (b : Ref sig .tc) : Buf (Elt F) ((c : Thread nD τ).loc b) := W1 m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

abbrev rInv : Rect S4x1 := Rect.unit (s := S4x1) ![0, 0] S4x1.size inb_S4x1_S4x1_0_0
abbrev rDist : Rect S1x128x4x1024 := Rect.unit (s := S1x128x4x1024) ![0, 0, 0, 0] S1x128x4x1024.size inb_S1x128x4x1024_S1x128x4x1024_0_0_0_0
abbrev rKeys : Rect S1x1024x256 := Rect.unit (s := S1x1024x256) ![0, 0, 0] S1x1024x256.size inb_S1x1024x256_S1x1024x256_0_0_0
abbrev rQuery : Rect S1x128x256 := Rect.unit (s := S1x128x256) ![0, 0, 0] S1x128x256.size inb_S1x128x256_S1x128x256_0_0_0
abbrev rOut : Rect S1x128x1 := Rect.unit (s := S1x128x1) ![0, 0, 0] S1x128x1.size inb_S1x128x1_S1x128x1_0_0_0

/-- The output block after the body, from the four input blocks: the one store, over the whole block, of the
    skeleton's payload of the four loads. -/
def rowBlock (xInv : Vec F S4x1 .f32) (xDist : Vec F S1x128x4x1024 .f32) (xKeys : Vec F S1x1024x256 .f32) (xQuery : Vec F S1x128x256 .f32) :
    Vec F S1x128x1 .f32 :=
  View.canon [⟨rOut, k0_pay1 (View.ld xDist rDist) (View.ld xInv rInv) (View.ld xKeys rKeys) (View.ld xQuery rQuery)⟩]

/-- The one store covers the block. -/
theorem rowBlock_cover (p0 : Vec F S1x128x1 .f32) (y : S1x128x1.Idx) :
    ∃ pc ∈ ([⟨rOut, p0⟩] : List (View.Piece (Elt F) S1x128x1 .f32)), y ∈ pc.1.set :=
  View.cover_of_tiled [⟨rOut, p0⟩] S1x128x1.size (by rfl) y

/-! ## The body's triple -/

set_option maxHeartbeats 4000000 in
/-- The kernel body on whole staging memrefs, the inputs' at read contents and the output's at anything, runs to the
    continuation holding the inputs' as they were and the output's at `rowBlock` of them. -/
theorem sound_kernel (c : Dev nD) (E : Set ℕ) (i : grid0.Coords)
    (arg2 : Memref sig .tc .vmem S4x1 .f32) (harg2 : arg2.IsWhole) (arg3 : Memref sig .tc .vmem S1x128x4x1024 .f32) (harg3 : arg3.IsWhole)
    (arg4 : Memref sig .tc .vmem S1x1024x256 .f32) (harg4 : arg4.IsWhole) (arg5 : Memref sig .tc .vmem S1x128x256 .f32) (harg5 : arg5.IsWhole)
    (arg6 : Memref sig .tc .vmem S1x128x1 .f32) (harg6 : arg6.IsWhole)
    (x0 : Vec F S4x1 .f32) (x1 : Vec F S1x128x4x1024 .f32) (x2 : Vec F S1x1024x256 .f32) (x3 : Vec F S1x128x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (rowBlock x0 x1 x2 x3)) -∗ K ⟨⟩))
      ⊢ wp frame (wpE (defs₀ (F := F)) Variants.none c none) E (cc0__rbf_matmul_kernel i arg2 harg2 arg3 harg3 arg4 harg4 arg5 harg5 arg6 harg6) K := by
  simp only [cc0__rbf_matmul_kernel_eq_skeleton]; unfold cc0__rbf_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (rowBlock_cover _)

/-! ## The proof data of the one pipeline -/

/-- On core `c`: the arrays as the region finds them; after the body at point `t` each input's buffer at its block
    and the output's at `rowBlock` of the four; the invariant the scoped rest and the generator register, untouched;
    nothing owed; z's buffer, read through two windows, held half and half, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowBlock (iblk m c 0 t) (iblk m c 1 t) (iblk m c 2 t) (iblk m c 3 t)
  Φ _ := Pipeline.ΦA spec0 c
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = rowBlock (iblk m c 0 t) (iblk m c 1 t) (iblk m c 2 t) (iblk m c 3 t) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KbShares.lean ====
/-
  z is handed to the kernel through two windows (all key rows of a batch; the query rows of a tile). Its buffer is
  therefore split between the two windows, half the share each, when the region is entered, and the halves are joined
  again when it is left; every other array of the call is a buffer of its own, held whole. This module says how a core's
  unscoped buffers make the pipeline's arrays at entry, and how the arrays at exit — the inputs unchanged, the output
  at what the write-backs left — make the unscoped buffers again.
-/
import proofs.«177375_j43052752175789_1_alg».proof.Proof.KbBody
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ)

/-- Core `c`'s buffers when the region is left: the output array at what the write-backs left, every other buffer as
    the region found it. -/
def W2 (c : Dev nD) : Valuation τ sig (Elt F) :=
  Function.update (W1 m c) (Proc.devRef .tc main_v7) ((dats m 0 c).arrAt 4 cfg0.N)

/-- The same read at the TensorCore's references. -/
abbrev V2 (c : Dev nD) (b : Ref sig .tc) : Buf (Elt F) ((c : Thread nD τ).loc b) := W2 m c b

theorem W2_out (c : Dev nD) : W2 m c (Proc.devRef .tc main_v7) = (dats m 0 c).arrAt 4 cfg0.N := by
  unfold W2; exact Function.update_self _ _ _

theorem W2_of_ne (c : Dev nD) (b : Ref sig .tc) (hb : b ≠ main_v7) : W2 m c (Proc.devRef .tc b) = W1 m c (Proc.devRef .tc b) := by
  unfold W2; exact Function.update_of_ne (StableHlo.devRef_ne_of_ne hb) _ _

/-- A window's array is a whole buffer: its points-to is the buffer's. -/
theorem arr_pt (c : Dev nD) (w : Fin cfg0.W) (q : PosShare TreeShare)
    (X : Buf (Elt F) ((cfg0.win w).arr.view.loc (c.tc : Thread nD τ))) :
    (((cfg0.win w).arr.view.loc (c.tc : Thread nD τ)) ↦[(cfg0.win w).arr.view.set]{q} X : sProp 𝕄)
      = (((c.tc : Thread nD τ).loc (Pipeline.arrRef spec0 w)) ↦{q} X) := by
  rw [(arr_whole0 w).set_eq_univ]

/-- The shares the windows' arrays are held at: z's two windows a half each, every other window the whole. -/
theorem share0 (c : Dev nD) : (dats m 0 c).share 0 = fullShare := rfl
theorem share1 (c : Dev nD) : (dats m 0 c).share 1 = fullShare := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-- The four distinct buffers behind the five windows, one by one. -/
theorem arrBufs_chain (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v5) ↦{fullShare} X main_v5) ∗ (((c : Thread nD τ).loc main_v6) ↦{fullShare} X main_v6)
          ∗ (((c : Thread nD τ).loc main_arg0) ↦{fullShare} X main_arg0) ∗ (((c : Thread nD τ).loc main_v7) ↦{fullShare} X main_v7)) := by
  unfold Pipeline.arrBufs
  exact bigSep_eq_bigSepL_of_eq [main_v5, main_v6, main_arg0, main_v7] (by decide) (by decide) _

/-- The pipeline's arrays at contents `G`, window by window, each a whole buffer at its share. -/
theorem arrays_chain (c : Dev nD) (G : (w : Fin cfg0.W) → Buf (Elt F) ((cfg0.win w).arr.view.loc (c.tc : Thread nD τ))) :
    ((dats m 0 c).arrays G : sProp 𝕄)
      = iprop((((c : Thread nD τ).loc main_v5) ↦{fullShare} G 0) ∗ (((c : Thread nD τ).loc main_v6) ↦{fullShare} G 1)
          ∗ (((c : Thread nD τ).loc main_arg0) ↦{fullShare.left} G 2) ∗ (((c : Thread nD τ).loc main_arg0) ↦{fullShare.right} G 3)
          ∗ (((c : Thread nD τ).loc main_v7) ↦{fullShare} G 4)) := by
  unfold Pipeline.Dat.arrays
  rw [bigSep_W0, arr_pt, arr_pt, arr_pt, arr_pt, arr_pt, share0, share1, share2, share3, share4]

/-- ENTRY: the unscoped buffers as the region finds them are the pipeline's arrays at their entry contents — z's buffer
    split in halves between its two windows — and the buffers that bypass the region. -/
theorem arrays_entry (c : Dev nD) :
    (unscopedBufs c (V m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  have hsplit := Pipeline.unscopedBufs_split₀ (Ix := Unit) (Name := ℕ) (U := UR sig nD τ) (Lvl := ℕ)
    (fun _ : Fin 1 => cfg0) 0 winFacts₀0.arr_unscoped c (V m c)
  refine (Entails.of_eq hsplit).trans (BIClass.sep_mono ?_ (Entails.refl _))
  refine (Entails.of_eq (arrBufs_chain c (V m c))).trans (BIBase.Entails.trans ?_ (Entails.of_eq (arrays_chain m c _).symm))
  iintro ⟨H0, H1, H2, H3⟩
  ihave H2 := (pointsTo_share (PosShare.mem_left_op_right fullShare)).1 $$ H2
  icases H2 with ⟨H2a, H2b⟩
  isplitl [H0]; · iexact H0
  isplitl [H1]; · iexact H1
  isplitl [H2a]; · iexact H2a
  isplitl [H2b]; · iexact H2b
  iexact H3

/-- The arrays after the last point: the inputs as the region found them, the output at the exit contents. -/
theorem arrays_exit_chain (c : Dev nD) :
    ((dats m 0 c).arrays ((dats m 0 c).arrAt · cfg0.N) : sProp 𝕄)
      = iprop((((c : Thread nD τ).loc main_v5) ↦{fullShare} V m c main_v5) ∗ (((c : Thread nD τ).loc main_v6) ↦{fullShare} V m c main_v6)
          ∗ (((c : Thread nD τ).loc main_arg0) ↦{fullShare.left} V m c main_arg0) ∗ (((c : Thread nD τ).loc main_arg0) ↦{fullShare.right} V m c main_arg0)
          ∗ (((c : Thread nD τ).loc main_v7) ↦{fullShare} V2 m c main_v7)) := by
  have e0 : (dats m 0 c).arrAt 0 cfg0.N = V m c main_v5 := ((dats m 0 c).arrAt_in 0 rfl _).trans (A_eq m c 0)
  have e1 : (dats m 0 c).arrAt 1 cfg0.N = V m c main_v6 := ((dats m 0 c).arrAt_in 1 rfl _).trans (A_eq m c 1)
  have e2 : (dats m 0 c).arrAt 2 cfg0.N = V m c main_arg0 := ((dats m 0 c).arrAt_in 2 rfl _).trans (A_eq m c 2)
  have e3 : (dats m 0 c).arrAt 3 cfg0.N = V m c main_arg0 := ((dats m 0 c).arrAt_in 3 rfl _).trans (A_eq m c 3)
  have e4 : (dats m 0 c).arrAt 4 cfg0.N = V2 m c main_v7 := (W2_out m c).symm
  rw [arrays_chain, e0, e1, e2, e3, e4]

/-- The four buffers at the exit contents: only the output's differs from what the region found. -/
theorem arrBufs_exit_chain (c : Dev nD) :
    (Pipeline.arrBufs (Ix := Unit) (Name := ℕ) (U := UR sig nD τ) (Lvl := ℕ) spec0 c (V2 m c) : sProp 𝕄)
      = iprop((((c : Thread nD τ).loc main_v5) ↦{fullShare} V m c main_v5) ∗ (((c : Thread nD τ).loc main_v6) ↦{fullShare} V m c main_v6)
          ∗ (((c : Thread nD τ).loc main_arg0) ↦{fullShare} V m c main_arg0) ∗ (((c : Thread nD τ).loc main_v7) ↦{fullShare} V2 m c main_v7)) := by
  have f0 : V2 m c main_v5 = V m c main_v5 := W2_of_ne m c main_v5 (by decide)
  have f1 : V2 m c main_v6 = V m c main_v6 := W2_of_ne m c main_v6 (by decide)
  have f2 : V2 m c main_arg0 = V m c main_arg0 := W2_of_ne m c main_arg0 (by decide)
  rw [arrBufs_chain, f0, f1, f2]

/-- EXIT: the arrays after the last point — z's two halves joined again — and the bypassing buffers are the unscoped
    buffers at the exit contents. -/
theorem arrays_exit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (unscopedBufs c (V2 m c) : sProp 𝕄) := by
  have hsplit := Pipeline.unscopedBufs_split₀ (Ix := Unit) (Name := ℕ) (U := UR sig nD τ) (Lvl := ℕ)
    (fun _ : Fin 1 => cfg0) 0 winFacts₀0.arr_unscoped c (V2 m c)
  refine BIBase.Entails.trans (BIClass.sep_mono ?_ (Entails.of_eq ?_)) (Entails.of_eq hsplit.symm)
  · refine (Entails.of_eq (arrays_exit_chain m c)).trans (BIBase.Entails.trans ?_ (Entails.of_eq (arrBufs_exit_chain m c).symm))
    iintro ⟨H0, H1, H2a, H2b, H3⟩
    ihave H2 := (pointsTo_share (PosShare.mem_left_op_right fullShare)).2 $$ [H2a H2b]
    · isplitl [H2a]; · iexact H2a
      iexact H2b
    isplitl [H0]; · iexact H0
    isplitl [H1]; · iexact H1
    isplitl [H2]; · iexact H2
    iexact H3
  · unfold Pipeline.unscopedRest
    exact bigSep_congr fun b hb => by
      have hne : b ≠ main_v7 := fun h =>
        (Finset.mem_sdiff.mp hb).2 (h ▸ Finset.mem_image.mpr ⟨(4 : Fin 5), Finset.mem_univ _, rfl⟩)
      rw [show V2 m c b = V m c b from W2_of_ne m c b hne]

end Cert.Kernel.Hand

end
-- ==== Proof.KbVals.lean ====
/-
  The buffers after the four host operations that follow the call (the sum of the rows and its division by 2^24), and
  the fact that nothing in the program writes an argument: no host operation has an argument as its result, and the
  call's only output array is a buffer of its own.
-/
import proofs.«177375_j43052752175789_1_alg».proof.Proof.KbShares

noncomputable section

namespace Cert.Kernel.Hand

open Cert.Kernel Cert.Kernel.Gen
open Idealize.ShloMosaic Idealize.ShloMosaic.TcCoe
open Idealize.SL.Sem

variable {F : FTy → Type} [FloatOps F]

variable (m : (ℓ : Loc nD τ sig) → Buf (Elt F) ℓ)

/-- Core `c`'s buffers at the end of @main. -/
abbrev W3 (c : Dev nD) : Valuation τ sig (Elt F) := StableHlo.after hostOps1 (W2 m c)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A reference none of the nine operations before the call writes keeps its launch contents up to the call. -/
theorem W1_of_not_written (c : Dev nD) (b : Ref sig .tc)
    (hb : b ≠ main_cst ∧ b ≠ main_v0 ∧ b ≠ main_v1 ∧ b ≠ main_v2 ∧ b ≠ main_cst_0 ∧ b ≠ main_v3 ∧ b ≠ main_v4 ∧ b ≠ main_v5 ∧ b ≠ main_v6) :
    W1 m c (Proc.devRef .tc b) = m (c, Proc.devRef .tc b) := by
  obtain ⟨h0, h1, h2, h3, h4, h5, h6, h7, h8⟩ := hb
  refine StableHlo.after_of_forall_not_mem (b := Proc.devRef .tc b) hostOps0 (W0 m c) ?_
  intro op hop
  simp only [List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- A reference none of the four operations after the call writes keeps what it held when the call ended. -/
theorem W3_of_not_written (c : Dev nD) (b : Ref sig .tc)
    (hb : b ≠ main_cst_1 ∧ b ≠ main_v8 ∧ b ≠ main_cst_2 ∧ b ≠ main_v9) :
    W3 m c (Proc.devRef .tc b) = W2 m c (Proc.devRef .tc b) := by
  obtain ⟨h0, h1, h2, h3⟩ := hb
  refine StableHlo.after_of_forall_not_mem (b := Proc.devRef .tc b) hostOps1 (W2 m c) ?_
  intro op hop
  simp only [List.mem_cons, List.mem_nil_iff, or_false] at hop
  rcases hop with rfl | rfl | rfl | rfl <;>
    simp only [StableHlo.unary_writes, StableHlo.binary_writes, StableHlo.nullary_writes, Finset.mem_singleton] <;>
    exact StableHlo.devRef_ne_of_ne ‹_›

/-- The three arguments end as launched. -/
theorem W3_arg0 (c : Dev nD) : W3 m c (Proc.devRef .tc main_arg0) = m ((c : Thread nD τ).loc main_arg0) :=
  (W3_of_not_written m c main_arg0 (by decide)).trans <| (W2_of_ne m c main_arg0 (by decide)).trans <|
    W1_of_not_written m c main_arg0 (by decide)
theorem W3_arg1 (c : Dev nD) : W3 m c (Proc.devRef .tc main_arg1) = m ((c : Thread nD τ).loc main_arg1) :=
  (W3_of_not_written m c main_arg1 (by decide)).trans <| (W2_of_ne m c main_arg1 (by decide)).trans <|
    W1_of_not_written m c main_arg1 (by decide)
theorem W3_arg2 (c : Dev nD) : W3 m c (Proc.devRef .tc main_arg2) = m ((c : Thread nD τ).loc main_arg2) :=
  (W3_of_not_written m c main_arg2 (by decide)).trans <| (W2_of_ne m c main_arg2 (by decide)).trans <|
    W1_of_not_written m c main_arg2 (by decide)

end Cert.Kernel.Hand

end
-- ==== Proof.KbRun.lean ====
/-
  The launch: @main as host operations, the call, host operations.

  Between two of these three items the core holds every unscoped buffer whole at a known valuation (at launch; after
  the nine operations before the call; after the call, where only the output array has changed; after the four
  operations that follow), its generator register, and owes no one anything. The call takes its arrays out of the
  unscoped buffers — z's buffer split between its two windows — and puts them back at its exit; the register goes
  through the region's invariant. At the end every unscoped buffer is read back at the last valuation.
-/
import proofs.«177375_j43052752175789_1_alg».proof.Proof.KbVals
import Idealize.ShloMosaic.Lib.Pipeline.Frame
import Idealize.ShloMosaic.Lib.Pipeline.Regions

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No prefetched table. -/
abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and owing nothing. -/
abbrev R (c : Dev nD) : sProp 𝕄 := iprop((∃ r, prngReg c r) ∗ ∃ W, owes (c : Thread nD τ) (0 : CellTallies nD τ sig Unit) W)

/-- A line of host operations as a segment over all unscoped buffers from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- The call as a segment: entered from every unscoped buffer at `W1`, left at `W2`. -/
def reg : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := arrays_entry m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_exit m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's three items in order. -/
abbrev segs : List (Pipeline.Seg (pcfgs (F := F)) adm (dats m) () defs₀ 𝒱₀ L lv) :=
  [ .host (hseg hostOps0 hostOps0_sub hostOps0_fresh (W0 m)),
    .region (reg m),
    .host (hseg hostOps1 hostOps1_sub hostOps1_fresh (W2 m)) ]

/-- @main is the run of the three. -/
theorem main_run (c : Dev nD) : main (F := F) c = Pipeline.Seg.run (segs m) := (main_chain c).trans (by chain_rfl)

/-- The last thread state without what the core owes: every unscoped buffer at the last valuation, the register. -/
abbrev Tₙ (c : Dev nD) : sProp 𝕄 := iprop(StableHlo.held (c : Thread nD τ) (Pipeline.ucRefs τ sig) (W3 m c) ∗ ∃ r, prngReg c r)

set_option backward.isDefEq.respectTransparency.types false in
/-- From any memory with zero counters every weakly fair execution of @main terminates, nothing faulting, and every
    final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c =>
      show iprop(StableHlo.held (c : Thread nD τ) (Pipeline.ucRefs τ sig) (W3 m c) ∗ R c)
        ⊢ iprop(Tₙ m c ∗ ∃ W, owes (c : Thread nD τ) (0 : CellTallies nD τ sig Unit) W) from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- An unscoped TensorCore reference is among those read back at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float values: every weakly fair execution of @main terminates, nothing faulting, with the three
    arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_arg0 m c),
     (h c _ (mem_uc main_arg1 (by decide))).trans (W3_arg1 m c),
     (h c _ (mem_uc main_arg2 (by decide))).trans (W3_arg2 m c)⟩) (run_all m ρ)

end Cert.Kernel.Hand

end
-- ==== Proof.KiBody.lean ====
/-
  The idealized kernel's body, one grid point at a time.

  At grid point (b, q) the kernel holds five staging buffers: the four reciprocals 1 / (2 σ_k σ_k) (a column of
  four), the 128 query rows q·128 … q·128 + 127 of batch b of the swapped distances (128 × 4 × 1024), all 1024 rows
  of z for batch b (the keys), the 128 query rows of z, and the 128 × 1 output block. The body reads the four inputs
  (and, idly, the output block), computes one number per query row, and overwrites the whole output block with them.
  So after the body the output block is one function, `rowBlock`, of the four input blocks, and the input blocks are
  as they were. Both input windows 2 and 3 are blocks of the same array z.
-/
import proofs.«177375_j43052752175789_1_alg».proof.Proof.Gen.KernelIdeal.Launch
import proofs.«177375_j43052752175789_1_alg».proof.Proof.Gen.KernelIdeal.Skeleton
import proofs.«177375_j43052752175789_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers at launch, as a valuation of the host operations; -/
abbrev W0 (c : Dev nD) : Valuation τ sig (Elt F) := fun b => m (c, b)
/-- and after the nine host operations before the call (the reciprocals, the swapped distances). -/
abbrev W1 (c : Dev nD) : Valuation τ sig (Elt F) := StableHlo.after hostOps0 (W0 m c)
/-- The same read at the TensorCore's references: what the region finds. -/
abbrev V (c : Dev nD) (b : Ref sig .tc) : Buf (Elt F) ((c : Thread nD τ).loc b) := W1 m c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output block -/

abbrev rInv : Rect S4x1 := Rect.unit (s := S4x1) ![0, 0] S4x1.size inb_S4x1_S4x1_0_0
abbrev rDist : Rect S1x128x4x1024 := Rect.unit (s := S1x128x4x1024) ![0, 0, 0, 0] S1x128x4x1024.size inb_S1x128x4x1024_S1x128x4x1024_0_0_0_0
abbrev rKeys : Rect S1x1024x256 := Rect.unit (s := S1x1024x256) ![0, 0, 0] S1x1024x256.size inb_S1x1024x256_S1x1024x256_0_0_0
abbrev rQuery : Rect S1x128x256 := Rect.unit (s := S1x128x256) ![0, 0, 0] S1x128x256.size inb_S1x128x256_S1x128x256_0_0_0
abbrev rOut : Rect S1x128x1 := Rect.unit (s := S1x128x1) ![0, 0, 0] S1x128x1.size inb_S1x128x1_S1x128x1_0_0_0

/-- The output block after the body, from the four input blocks: the one store, over the whole block, of the
    skeleton's payload of the four loads. -/
def rowBlock (xInv : Vec F S4x1 .f32) (xDist : Vec F S1x128x4x1024 .f32) (xKeys : Vec F S1x1024x256 .f32) (xQuery : Vec F S1x128x256 .f32) :
    Vec F S1x128x1 .f32 :=
  View.canon [⟨rOut, k0_pay1 (View.ld xDist rDist) (View.ld xInv rInv) (View.ld xKeys rKeys) (View.ld xQuery rQuery)⟩]

/-- The one store covers the block. -/
theorem rowBlock_cover (p0 : Vec F S1x128x1 .f32) (y : S1x128x1.Idx) :
    ∃ pc ∈ ([⟨rOut, p0⟩] : List (View.Piece (Elt F) S1x128x1 .f32)), y ∈ pc.1.set :=
  View.cover_of_tiled [⟨rOut, p0⟩] S1x128x1.size (by rfl) y

/-! ## The body's triple -/

set_option maxHeartbeats 4000000 in
/-- The kernel body on whole staging memrefs, the inputs' at read contents and the output's at anything, runs to the
    continuation holding the inputs' as they were and the output's at `rowBlock` of them. -/
theorem sound_kernel (c : Dev nD) (E : Set ℕ) (i : grid0.Coords)
    (arg2 : Memref sig .tc .vmem S4x1 .f32) (harg2 : arg2.IsWhole) (arg3 : Memref sig .tc .vmem S1x128x4x1024 .f32) (harg3 : arg3.IsWhole)
    (arg4 : Memref sig .tc .vmem S1x1024x256 .f32) (harg4 : arg4.IsWhole) (arg5 : Memref sig .tc .vmem S1x128x256 .f32) (harg5 : arg5.IsWhole)
    (arg6 : Memref sig .tc .vmem S1x128x1 .f32) (harg6 : arg6.IsWhole)
    (x0 : Vec F S4x1 .f32) (x1 : Vec F S1x128x4x1024 .f32) (x2 : Vec F S1x1024x256 .f32) (x3 : Vec F S1x128x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (rowBlock x0 x1 x2 x3)) -∗ K ⟨⟩))
      ⊢ wp frame (wpE (defs₀ (F := F)) Variants.none c none) E (cc0__rbf_matmul_kernel i arg2 harg2 arg3 harg3 arg4 harg4 arg5 harg5 arg6 harg6) K := by
  simp only [cc0__rbf_matmul_kernel_eq_skeleton]; unfold cc0__rbf_matmul_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (rowBlock_cover _)

/-! ## The proof data of the one pipeline -/

/-- On core `c`: the arrays as the region finds them; after the body at point `t` each input's buffer at its block
    and the output's at `rowBlock` of the four; the invariant the scoped rest and the generator register, untouched;
    nothing owed; z's buffer, read through two windows, held half and half, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => rowBlock (iblk m c 0 t) (iblk m c 1 t) (iblk m c 2 t) (iblk m c 3 t)
  Φ _ := Pipeline.ΦA spec0 c
  q w := match w with
    | ⟨0, _⟩ => fullShare
    | ⟨1, _⟩ => fullShare
    | ⟨2, _⟩ => fullShare.left
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = rowBlock (iblk m c 0 t) (iblk m c 1 t) (iblk m c 2 t) (iblk m c 3 t) := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiShares.lean ====
/-
  z is handed to the kernel through two windows (all key rows of a batch; the query rows of a tile). Its buffer is
  therefore split between the two windows, half the share each, when the region is entered, and the halves are joined
  again when it is left; every other array of the call is a buffer of its own, held whole. This module says how a core's
  unscoped buffers make the pipeline's arrays at entry, and how the arrays at exit — the inputs unchanged, the output
  at what the write-backs left — make the unscoped buffers again.
-/
import proofs.«177375_j43052752175789_1_alg».proof.Proof.KiBody
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F]

local notation "𝕄" => MT nD τ sig Unit (Elt F) ℕ (UR sig nD τ) ℕ

variable (m : (ℓ : Loc nD τ sig) → Buf (Elt F) ℓ)

/-- Core `c`'s buffers when the region is left: the output array at what the write-backs left, every other buffer as
    the region found it. -/
def W2 (c : Dev nD) : Valuation τ sig (Elt F) :=
  Function.update (W1 m c) (Proc.devRef .tc main_v7) ((dats m 0 c).arrAt 4 cfg0.N)

/-- The same read at the TensorCore's references. -/
abbrev V2 (c : Dev nD) (b : Ref sig .tc) : Buf (Elt F) ((c : Thread nD τ).loc b) := W2 m c b

theorem W2_out (c : Dev nD) : W2 m c (Proc.devRef .tc main_v7) = (dats m 0 c).arrAt 4 cfg0.N := by
  unfold W2; exact Function.update_self _ _ _

theorem W2_of_ne (c : Dev nD) (b : Ref sig .tc) (hb : b ≠ main_v7) : W2 m c (Proc.devRef .tc b) = W1 m c (Proc.devRef .tc b) := by
  unfold W2; exact Function.update_of_ne (StableHlo.devRef_ne_of_ne hb) _ _

/-- A window's array is a whole buffer: its points-to is the buffer's. -/
theorem arr_pt (c : Dev nD) (w : Fin cfg0.W) (q : PosShare TreeShare)
    (X : Buf (Elt F) ((cfg0.win w).arr.view.loc (c.tc : Thread nD τ))) :
    (((cfg0.win w).arr.view.loc (c.tc : Thread nD τ)) ↦[(cfg0.win w).arr.view.set]{q} X : sProp 𝕄)
      = (((c.tc : Thread nD τ).loc (Pipeline.arrRef spec0 w)) ↦{q} X) := by
  rw [(arr_whole0 w).set_eq_univ]

/-- The shares the windows' arrays are held at: z's two windows a half each, every other window the whole. -/
theorem share0 (c : Dev nD) : (dats m 0 c).share 0 = fullShare := rfl
theorem share1 (c : Dev nD) : (dats m 0 c).share 1 = fullShare := rfl
theorem share2 (c : Dev nD) : (dats m 0 c).share 2 = fullShare.left := rfl
theorem share3 (c : Dev nD) : (dats m 0 c).share 3 = fullShare.right := rfl
theorem share4 (c : Dev nD) : (dats m 0 c).share 4 = fullShare := rfl

/-- The four distinct buffers behind the five windows, one by one. -/
theorem arrBufs_chain (c : Dev nD) (X : (b : Ref sig .tc) → Buf (Elt F) ((c : Thread nD τ).loc b)) :
    (Pipeline.arrBufs (Ix := Unit) (Name := ℕ) (U := UR sig nD τ) (Lvl := ℕ) spec0 c X : sProp 𝕄)
      = iprop((((c : Thread nD τ).loc main_v5) ↦{fullShare} X main_v5) ∗ (((c : Thread nD τ).loc main_v6) ↦{fullShare} X main_v6)
          ∗ (((c : Thread nD τ).loc main_arg0) ↦{fullShare} X main_arg0) ∗ (((c : Thread nD τ).loc main_v7) ↦{fullShare} X main_v7)) := by
  unfold Pipeline.arrBufs
  exact bigSep_eq_bigSepL_of_eq [main_v5, main_v6, main_arg0, main_v7] (by decide) (by decide) _

/-- The pipeline's arrays at contents `G`, window by window, each a whole buffer at its share. -/
theorem arrays_chain (c : Dev nD) (G : (w : Fin cfg0.W) → Buf (Elt F) ((cfg0.win w).arr.view.loc (c.tc : Thread nD τ))) :
    ((dats m 0 c).arrays G : sProp 𝕄)
      = iprop((((c : Thread nD τ).loc main_v5) ↦{fullShare} G 0) ∗ (((c : Thread nD τ).loc main_v6) ↦{fullShare} G 1)
          ∗ (((c : Thread nD τ).loc main_arg0) ↦{fullShare.left} G 2) ∗ (((c : Thread nD τ).loc main_arg0) ↦{fullShare.right} G 3)
          ∗ (((c : Thread nD τ).loc main_v7) ↦{fullShare} G 4)) := by
  unfold Pipeline.Dat.arrays
  rw [bigSep_W0, arr_pt, arr_pt, arr_pt, arr_pt, arr_pt, share0, share1, share2, share3, share4]

/-- ENTRY: the unscoped buffers as the region finds them are the pipeline's arrays at their entry contents — z's buffer
    split in halves between its two windows — and the buffers that bypass the region. -/
theorem arrays_entry (c : Dev nD) :
    (unscopedBufs c (V m c) : sProp 𝕄)
      ⊢ iprop((dats m 0 c).arrays ((dats m 0 c).arrAt · 0)
          ∗ Pipeline.unscopedRest (Ix := Unit) (Name := ℕ) (U := UR sig nD τ) (Lvl := ℕ) spec0 c (V m c)) := by
  have hsplit := Pipeline.unscopedBufs_split₀ (Ix := Unit) (Name := ℕ) (U := UR sig nD τ) (Lvl := ℕ)
    (fun _ : Fin 1 => cfg0) 0 winFacts₀0.arr_unscoped c (V m c)
  refine (Entails.of_eq hsplit).trans (BIClass.sep_mono ?_ (Entails.refl _))
  refine (Entails.of_eq (arrBufs_chain c (V m c))).trans (BIBase.Entails.trans ?_ (Entails.of_eq (arrays_chain m c _).symm))
  iintro ⟨H0, H1, H2, H3⟩
  ihave H2 := (pointsTo_share (PosShare.mem_left_op_right fullShare)).1 $$ H2
  icases H2 with ⟨H2a, H2b⟩
  isplitl [H0]; · iexact H0
  isplitl [H1]; · iexact H1
  isplitl [H2a]; · iexact H2a
  isplitl [H2b]; · iexact H2b
  iexact H3

/-- The arrays after the last point: the inputs as the region found them, the output at the exit contents. -/
theorem arrays_exit_chain (c : Dev nD) :
    ((dats m 0 c).arrays ((dats m 0 c).arrAt · cfg0.N) : sProp 𝕄)
      = iprop((((c : Thread nD τ).loc main_v5) ↦{fullShare} V m c main_v5) ∗ (((c : Thread nD τ).loc main_v6) ↦{fullShare} V m c main_v6)
          ∗ (((c : Thread nD τ).loc main_arg0) ↦{fullShare.left} V m c main_arg0) ∗ (((c : Thread nD τ).loc main_arg0) ↦{fullShare.right} V m c main_arg0)
          ∗ (((c : Thread nD τ).loc main_v7) ↦{fullShare} V2 m c main_v7)) := by
  have e0 : (dats m 0 c).arrAt 0 cfg0.N = V m c main_v5 := ((dats m 0 c).arrAt_in 0 rfl _).trans (A_eq m c 0)
  have e1 : (dats m 0 c).arrAt 1 cfg0.N = V m c main_v6 := ((dats m 0 c).arrAt_in 1 rfl _).trans (A_eq m c 1)
  have e2 : (dats m 0 c).arrAt 2 cfg0.N = V m c main_arg0 := ((dats m 0 c).arrAt_in 2 rfl _).trans (A_eq m c 2)
  have e3 : (dats m 0 c).arrAt 3 cfg0.N = V m c main_arg0 := ((dats m 0 c).arrAt_in 3 rfl _).trans (A_eq m c 3)
  have e4 : (dats m 0 c).arrAt 4 cfg0.N = V2 m c main_v7 := (W2_out m c).symm
  rw [arrays_chain, e0, e1, e2, e3, e4]

/-- The four buffers at the exit contents: only the output's differs from what the region found. -/
theorem arrBufs_exit_chain (c : Dev nD) :
    (Pipeline.arrBufs (Ix := Unit) (Name := ℕ) (U := UR sig nD τ) (Lvl := ℕ) spec0 c (V2 m c) : sProp 𝕄)
      = iprop((((c : Thread nD τ).loc main_v5) ↦{fullShare} V m c main_v5) ∗ (((c : Thread nD τ).loc main_v6) ↦{fullShare} V m c main_v6)
          ∗ (((c : Thread nD τ).loc main_arg0) ↦{fullShare} V m c main_arg0) ∗ (((c : Thread nD τ).loc main_v7) ↦{fullShare} V2 m c main_v7)) := by
  have f0 : V2 m c main_v5 = V m c main_v5 := W2_of_ne m c main_v5 (by decide)
  have f1 : V2 m c main_v6 = V m c main_v6 := W2_of_ne m c main_v6 (by decide)
  have f2 : V2 m c main_arg0 = V m c main_arg0 := W2_of_ne m c main_arg0 (by decide)
  rw [arrBufs_chain, f0, f1, f2]

/-- EXIT: the arrays after the last point — z's two halves joined again — and the bypassing buffers are the unscoped
    buffers at the exit contents. -/
theorem arrays_exit (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (unscopedBufs c (V2 m c) : sProp 𝕄) := by
  have hsplit := Pipeline.unscopedBufs_split₀ (Ix := Unit) (Name := ℕ) (U := UR sig nD τ) (Lvl := ℕ)
    (fun _ : Fin 1 => cfg0) 0 winFacts₀0.arr_unscoped c (V2 m c)
  refine BIBase.Entails.trans (BIClass.sep_mono ?_ (Entails.of_eq ?_)) (Entails.of_eq hsplit.symm)
  · refine (Entails.of_eq (arrays_exit_chain m c)).trans (BIBase.Entails.trans ?_ (Entails.of_eq (arrBufs_exit_chain m c).symm))
    iintro ⟨H0, H1, H2a, H2b, H3⟩
    ihave H2 := (pointsTo_share (PosShare.mem_left_op_right fullShare)).2 $$ [H2a H2b]
    · isplitl [H2a]; · iexact H2a
      iexact H2b
    isplitl [H0]; · iexact H0
    isplitl [H1]; · iexact H1
    isplitl [H2]; · iexact H2
    iexact H3
  · unfold Pipeline.unscopedRest
    exact bigSep_congr fun b hb => by
      have hne : b ≠ main_v7 := fun h =>
        (Finset.mem_sdiff.mp hb).2 (h ▸ Finset.mem_image.mpr ⟨(4 : Fin 5), Finset.mem_univ _, rfl⟩)
      rw [show V2 m c b = V m c b from W2_of_ne m c b hne]

end Cert.KernelIdeal.Hand

end
-- ==== Proof.KiVals.lean ====
/-
  The buffers after the four host operations that follow the call (the sum of the rows and its division by 2^24), and
  the fact that nothing in the program writes an argument: no host operation has an argument as its result, and the
  call's only output array is a buffer of its own.
-/
import proofs.«177375_j43052752175789_1_alg».proof.Proof.KiShares

noncomputable section

namespace Cert.KernelIdeal.Hand

open Cert.KernelIdeal Cert.KernelIdeal.Gen
open Idealize.ShloMosaic Idealize.ShloMosaic.TcCoe
open Idealize.SL.Sem

variable {F : FTy → Type} [FloatOps F]

variable (m : (ℓ : Loc nD τ sig) → Buf (Elt F) ℓ)

/-- Core `c`'s buffers at the end of @main. -/
abbrev W3 (c : Dev nD) : Valuation τ sig (Elt F) := StableHlo.after hostOps1 (W2 m c)

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- A reference none of the nine operations before the call writes keeps its launch contents up to the call. -/
theorem W1_of_not_written (c : Dev nD) (b : Ref sig .tc)
    (hb : b ≠ main_cst ∧ b ≠ main_v0 ∧ b ≠ main_v1 ∧ b ≠ main_v2 ∧ b ≠ main_cst_0 ∧ b ≠ main_v3 ∧ b ≠ main_v4 ∧ b ≠ main_v5 ∧ b ≠ main_v6) :
    W1 m c (Proc.devRef .tc b) = m (c, Proc.devRef .tc b) := by
  obtain ⟨h0, h1, h2, h3, h4, h5, h6, h7, h8⟩ := hb
  refine StableHlo.after_of_forall_not_mem (b := Proc.devRef .tc b) hostOps0 (W0 m c) ?_
  intro op hop
  simp only [List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- A reference none of the four operations after the call writes keeps what it held when the call ended. -/
theorem W3_of_not_written (c : Dev nD) (b : Ref sig .tc)
    (hb : b ≠ main_cst_1 ∧ b ≠ main_v8 ∧ b ≠ main_cst_2 ∧ b ≠ main_v9) :
    W3 m c (Proc.devRef .tc b) = W2 m c (Proc.devRef .tc b) := by
  obtain ⟨h0, h1, h2, h3⟩ := hb
  refine StableHlo.after_of_forall_not_mem (b := Proc.devRef .tc b) hostOps1 (W2 m c) ?_
  intro op hop
  simp only [List.mem_cons, List.mem_nil_iff, or_false] at hop
  rcases hop with rfl | rfl | rfl | rfl <;>
    simp only [StableHlo.unary_writes, StableHlo.binary_writes, StableHlo.nullary_writes, Finset.mem_singleton] <;>
    exact StableHlo.devRef_ne_of_ne ‹_›

/-- The three arguments end as launched. -/
theorem W3_arg0 (c : Dev nD) : W3 m c (Proc.devRef .tc main_arg0) = m ((c : Thread nD τ).loc main_arg0) :=
  (W3_of_not_written m c main_arg0 (by decide)).trans <| (W2_of_ne m c main_arg0 (by decide)).trans <|
    W1_of_not_written m c main_arg0 (by decide)
theorem W3_arg1 (c : Dev nD) : W3 m c (Proc.devRef .tc main_arg1) = m ((c : Thread nD τ).loc main_arg1) :=
  (W3_of_not_written m c main_arg1 (by decide)).trans <| (W2_of_ne m c main_arg1 (by decide)).trans <|
    W1_of_not_written m c main_arg1 (by decide)
theorem W3_arg2 (c : Dev nD) : W3 m c (Proc.devRef .tc main_arg2) = m ((c : Thread nD τ).loc main_arg2) :=
  (W3_of_not_written m c main_arg2 (by decide)).trans <| (W2_of_ne m c main_arg2 (by decide)).trans <|
    W1_of_not_written m c main_arg2 (by decide)

end Cert.KernelIdeal.Hand

end
-- ==== Proof.Spec.lean ====
/-
  The two programs' results as closed formulas on the extended reals, and the law that joins them.

  Inputs: z (16 × 1024 × 256), the squared-distance components g (16 × 1024 × 1024 × 4), the four bandwidths σ.
  For a batch b, a query row t and a key row s, both programs form the weight
      w(b,t,s) = exp (Σ_k g(b,t,s,k)² / (2 σ_k σ_k)),
  the kernel by multiplying with the reciprocal 1 / (2 σ_k σ_k) it computed once, the reference by dividing. With
      z2(b,t) = Σ_d z(b,t,d)²,   ws(b,t) = Σ_s w(b,t,s),   wz(b,t,d) = Σ_s w(b,t,s) · z(b,s,d),
  the kernel computes one number per row, 2 · z2 · ws − 2 · Σ_d wz · z, sums all 16 · 1024 of them and divides by
  2^24; the reference sums per batch, 2 · Σ_t z2 · ws − 2 · Σ_{t,d} wz · z, sums the 16 batches, divides by 16 and then
  by 1024 · 1024. On real inputs with no σ_k zero everything is a real number and the two are the same number:
  sums of differences are differences of sums, a factor 2 leaves a sum, and 2^24 = 16 · 1024 · 1024. (With a σ_k at
  zero they are not: the kernel's 0 · (1/0) is 0 where the reference's 0/0 is −∞.)
-/
import Idealize.ShloMosaic.PureOps.Ideal
import Idealize.ShloMosaic.PureOps.Ideal.Laws

noncomputable section

namespace Cert.Spec

open Idealize.ShloMosaic

/-- The literals the two programs spell: 2, 1, 2^24, 16, 1024. -/
abbrev c2 : EReal := Ideal.ofBits .f32 0x40000000#32
abbrev c1 : EReal := Ideal.ofBits .f32 0x3F800000#32
abbrev cN : EReal := Ideal.ofBits .f32 0x4B800000#32
abbrev c16 : EReal := Ideal.ofBits .f32 0x41800000#32
abbrev c1024 : EReal := Ideal.ofBits .f32 0x44800000#32

/-! ## One grid point of the kernel, over its four blocks -/

/-- The weight of key row `s` for query row `r` of a block: the exponential of the scaled squared distance. -/
def blockW (inv : Fin 4 → EReal) (dist : Fin 128 → Fin 4 → Fin 1024 → EReal) (r : Fin 128) (s : Fin 1024) : EReal :=
  Ideal.exp (∑ k : Fin 4, (dist r k s * dist r k s) * inv k)

/-- What the kernel stores for query row `r` of a block. -/
def blockRow (inv : Fin 4 → EReal) (dist : Fin 128 → Fin 4 → Fin 1024 → EReal) (keys : Fin 1024 → Fin 256 → EReal)
    (query : Fin 128 → Fin 256 → EReal) (r : Fin 128) : EReal :=
  ((c2 * ∑ d : Fin 256, query r d * query r d) * ∑ s : Fin 1024, blockW inv dist r s)
    - c2 * ∑ d : Fin 256, (∑ s : Fin 1024, blockW inv dist r s * keys s d) * query r d

/-! ## The whole programs -/

variable (z : Fin 16 → Fin 1024 → Fin 256 → EReal) (g : Fin 16 → Fin 1024 → Fin 1024 → Fin 4 → EReal) (σ : Fin 4 → EReal)

/-- The kernel's reciprocal 1 / ((2 σ_k) σ_k), computed before the call. -/
def kInv (k : Fin 4) : EReal := Ideal.div c1 ((c2 * σ k) * σ k)

/-- The kernel's number for row `t` of batch `b`: the block formula at that row's blocks. -/
def kRow (b : Fin 16) (t : Fin 1024) : EReal :=
  ((c2 * ∑ d : Fin 256, z b t d * z b t d) * ∑ s : Fin 1024, Ideal.exp (∑ k : Fin 4, (g b t s k * g b t s k) * kInv σ k))
    - c2 * ∑ d : Fin 256, (∑ s : Fin 1024, Ideal.exp (∑ k : Fin 4, (g b t s k * g b t s k) * kInv σ k) * z b s d) * z b t d

/-- The kernel's result. -/
def kLoss : EReal := Ideal.div (0 + ∑ b : Fin 16, ∑ t : Fin 1024, kRow z g σ b t) cN

/-- The reference's weight. -/
def rW (b : Fin 16) (t s : Fin 1024) : EReal :=
  Ideal.exp (0 + ∑ k : Fin 4, Ideal.div (g b t s k * g b t s k) ((c2 * σ k) * σ k))

/-- The reference's result. -/
def rLoss : EReal :=
  Ideal.div (Ideal.div (0 + ∑ b : Fin 16,
      (c2 * (0 + ∑ t : Fin 1024, (0 + ∑ d : Fin 256, z b t d * z b t d) * (0 + ∑ s : Fin 1024, rW g σ b t s))
        - c2 * (0 + ∑ t : Fin 1024, ∑ d : Fin 256, (∑ s : Fin 1024, rW g σ b t s * z b s d) * z b t d))) c16) (c1024 * c1024)

/-! ## The literals, and the operations on real arguments -/

theorem c2_eq : c2 = ((2 : ℝ) : EReal) := by
  simp [Ideal.ofBits, Ideal.ieee, -EReal.coe_mul]; norm_num

theorem c1_eq : c1 = ((1 : ℝ) : EReal) := by
  simp [Ideal.ofBits, Ideal.ieee, -EReal.coe_mul]; norm_num

theorem cN_eq : cN = ((16777216 : ℝ) : EReal) := by
  simp [Ideal.ofBits, Ideal.ieee, -EReal.coe_mul]; norm_num

theorem c16_eq : c16 = ((16 : ℝ) : EReal) := by
  simp [Ideal.ofBits, Ideal.ieee, -EReal.coe_mul]; norm_num

theorem c1024_eq : c1024 = ((1024 : ℝ) : EReal) := by
  simp [Ideal.ofBits, Ideal.ieee, -EReal.coe_mul]; norm_num

/-- A finite sum of reals, read in the extended reals, is the sum of the readings. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero, is the real quotient. -/
theorem div_coe_coe (x : ℝ) {y : ℝ} (hy : y ≠ 0) :
    Ideal.div (x : EReal) (y : EReal) = ((x / y : ℝ) : EReal) := by
  rw [Ideal.div, if_neg (by exact_mod_cast hy), ← EReal.coe_inv, ← EReal.coe_mul, div_eq_mul_inv]

theorem div_cN (x : ℝ) : Ideal.div (x : EReal) cN = ((x / 16777216 : ℝ) : EReal) := by
  rw [cN_eq]; exact div_coe_coe x (by norm_num)

theorem div_c16 (x : ℝ) : Ideal.div (x : EReal) c16 = ((x / 16 : ℝ) : EReal) := by
  rw [c16_eq]; exact div_coe_coe x (by norm_num)

theorem div_c1024sq (x : ℝ) : Ideal.div (x : EReal) (c1024 * c1024) = ((x / (1024 * 1024) : ℝ) : EReal) := by
  rw [c1024_eq, ← EReal.coe_mul]; exact div_coe_coe x (by norm_num)

/-! ## The weight both programs form, as a real number -/

/-- exp (Σ_k g_k² / (2 σ_k σ_k)) on real arguments. -/
def wt (gr : Fin 4 → ℝ) (σr : Fin 4 → ℝ) : ℝ :=
  Real.exp (∑ k : Fin 4, gr k * gr k / ((2 * σr k) * σr k))

/-- The kernel's reciprocal at a nonzero real bandwidth. -/
theorem kInv_coe (σr : Fin 4 → ℝ) (k : Fin 4) (h : σr k ≠ 0) :
    kInv (fun k => (σr k : EReal)) k = ((1 / ((2 * σr k) * σr k) : ℝ) : EReal) := by
  have h2 : (2 * σr k) * σr k ≠ 0 := mul_ne_zero (mul_ne_zero two_ne_zero h) h
  simp only [kInv, c1_eq, c2_eq, ← EReal.coe_mul]
  exact div_coe_coe 1 h2

/-- The kernel's weight: multiplying by the reciprocal is dividing. -/
theorem kW_coe (gr : Fin 4 → ℝ) (σr : Fin 4 → ℝ) (h : ∀ k, σr k ≠ 0) :
    Ideal.exp (∑ k : Fin 4, ((gr k : EReal) * (gr k : EReal)) * kInv (fun k => (σr k : EReal)) k)
      = ((wt gr σr : ℝ) : EReal) := by
  have hk : ∀ k, kInv (fun k => (σr k : EReal)) k = ((1 / ((2 * σr k) * σr k) : ℝ) : EReal) :=
    fun k => kInv_coe σr k (h k)
  simp only [hk, ← EReal.coe_mul, coe_sum, Ideal.exp_coe, mul_one_div, wt]

/-- The reference's weight. -/
theorem rW_coe (gr : Fin 16 → Fin 1024 → Fin 1024 → Fin 4 → ℝ) (σr : Fin 4 → ℝ) (h : ∀ k, σr k ≠ 0)
    (b : Fin 16) (t s : Fin 1024) :
    rW (fun b t s k => (gr b t s k : EReal)) (fun k => (σr k : EReal)) b t s = ((wt (gr b t s) σr : ℝ) : EReal) := by
  have h2 : ∀ k, (2 * σr k) * σr k ≠ 0 := fun k => mul_ne_zero (mul_ne_zero two_ne_zero (h k)) (h k)
  have hd : ∀ k, Ideal.div ((gr b t s k * gr b t s k : ℝ) : EReal) (((2 * σr k) * σr k : ℝ) : EReal)
      = ((gr b t s k * gr b t s k / ((2 * σr k) * σr k) : ℝ) : EReal) := fun k => div_coe_coe _ (h2 k)
  simp only [rW, c2_eq, ← EReal.coe_mul, hd, zero_add, coe_sum, Ideal.exp_coe, wt]

/-! ## The identity on the reals -/

/-- Sums of differences are differences of sums, a factor 2 leaves a sum, and 2^24 = 16 · 1024 · 1024. -/
theorem real_identity {β τ : Type*} [Fintype β] [Fintype τ] (Z W Q : β → τ → ℝ) :
    (∑ b, ∑ t, ((2 * Z b t) * W b t - 2 * Q b t)) / 16777216
      = (∑ b, (2 * ∑ t, Z b t * W b t - 2 * ∑ t, Q b t)) / 16 / (1024 * 1024) := by
  have hrow : ∀ b, ∑ t, ((2 * Z b t) * W b t - 2 * Q b t) = 2 * ∑ t, Z b t * W b t - 2 * ∑ t, Q b t := by
    intro b
    rw [Finset.sum_sub_distrib, Finset.mul_sum, Finset.mul_sum]
    simp only [mul_assoc]
  simp only [hrow]
  rw [div_div]; norm_num

/-- On real inputs with every bandwidth nonzero the two programs compute the same number. -/
theorem kLoss_eq_rLoss
    (hz : ∀ b t d, ∃ r : ℝ, z b t d = (r : EReal)) (hg : ∀ b t s k, ∃ r : ℝ, g b t s k = (r : EReal))
    (hσ : ∀ k, ∃ r : ℝ, σ k = (r : EReal)) (hσ0 : ∀ k, σ k ≠ 0) :
    kLoss z g σ = rLoss z g σ := by
  choose zr hzr using hz
  choose gr hgr using hg
  choose σr hσr using hσ
  obtain rfl : z = fun b t d => (zr b t d : EReal) := by funext b t d; exact hzr b t d
  obtain rfl : g = fun b t s k => (gr b t s k : EReal) := by funext b t s k; exact hgr b t s k
  obtain rfl : σ = fun k => (σr k : EReal) := funext hσr
  have hσr0 : ∀ k, σr k ≠ 0 := fun k h => hσ0 k (by show ((σr k : ℝ) : EReal) = 0; rw [h]; rfl)
  have hK : ∀ b t s, Ideal.exp (∑ k : Fin 4, ((gr b t s k : EReal) * (gr b t s k : EReal))
      * kInv (fun k => (σr k : EReal)) k) = ((wt (gr b t s) σr : ℝ) : EReal) :=
    fun b t s => kW_coe (gr b t s) σr hσr0
  have hR := rW_coe gr σr hσr0
  simp only [kLoss, rLoss, kRow, hK, hR]
  simp only [c2_eq, zero_add, ← EReal.coe_mul, ← EReal.coe_sub, coe_sum, div_cN, div_c16, div_c1024sq]
  congr 1
  exact real_identity (fun b t => ∑ d, zr b t d * zr b t d) (fun b t => ∑ s, wt (gr b t s) σr)
    (fun b t => ∑ d, (∑ s, wt (gr b t s) σr * zr b s d) * zr b t d)

end Cert.Spec

end
-- ==== Proof.KiHost.lean ====
/-
  The host operations around the call, read at the ideal values.

  Before the call: the reciprocals 1 / ((2 σ_k) σ_k), reshaped to a column of four, and the distance components with
  their last two axes swapped, so that component k of the pair (t, s) sits at (t, k, s); z itself is untouched. After
  the call: the sum of all 16 · 1024 row values, starting from zero, divided by 2^24.
-/
import proofs.«177375_j43052752175789_1_alg».proof.Proof.KiVals
import proofs.«177375_j43052752175789_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- z reaches the call as launched. -/
theorem V_keys (c : Dev nD) : V m c main_arg0 = m ((c : Thread nD τ).loc main_arg0) :=
  W1_of_not_written m c main_arg0 (by decide)

/-- The column of reciprocals the call is handed: entry k is 1 / ((2 σ_k) σ_k). -/
theorem V_inv (c : Dev nD) (k : Fin 4) :
    (V m c main_v5 : S4x1.Idx → EReal) (ix2 k (0 : Fin 1))
      = Cert.Spec.kInv (fun k => (m ((c : Thread nD τ).loc main_arg2) : S4.Idx → EReal) (ix1 k)) k := by
  have e : (V m c main_v5 : S4x1.Idx → EReal)
      = shapeCast S4x1 (Host.divf (F := Ideal) (broadcastInDim S4 ![] bcast_S_S4 (constant (F := Ideal) S_ .f32 0x3F800000#32))
          (mulf (F := Ideal) (mulf (F := Ideal) (broadcastInDim S4 ![] bcast_S_S4 (constant (F := Ideal) S_ .f32 0x40000000#32))
            (m ((c : Thread nD τ).loc main_arg2) : S4.Idx → EReal)) (m ((c : Thread nD τ).loc main_arg2) : S4.Idx → EReal)))
          shapeCasts_S4_S4x1 := by
    dsimp only [V, W1, hostOps0]
    after_results
    rfl
  rw [e, shapeCast_apply _ shapeCasts_S4_S4x1 (ix2 k (0 : Fin 1)) (ix1 k) (by
    rw [Shape.rowMajor_val_two, Shape.rowMajor_val_one]
    show k.val = k.val * 1 + 0
    omega)]
  rfl

/-- The swapped distance components the call is handed: component k of the pair (t, s) at (t, k, s). -/
theorem V_dist (c : Dev nD) (b : Fin 16) (t : Fin 1024) (k : Fin 4) (s : Fin 1024) :
    (V m c main_v6 : S16x1024x4x1024.Idx → EReal) (ix4 b t k s)
      = (m ((c : Thread nD τ).loc main_arg1) : S16x1024x1024x4.Idx → EReal) (ix4 b t s k) := by
  have e : (V m c main_v6 : S16x1024x4x1024.Idx → EReal)
      = transpose S16x1024x4x1024 [0, 1, 3, 2] (m ((c : Thread nD τ).loc main_arg1) : S16x1024x1024x4.Idx → EReal)
          transposes_S16x1024x1024x4_S16x1024x4x1024_0_1_3_2 := by
    dsimp only [V, W1, hostOps0]
    after_results
  rw [e]
  exact transpose_apply _ _ _ _ _ (fun a => match a with
    | ⟨0, _⟩ => rfl | ⟨1, _⟩ => rfl | ⟨2, _⟩ => rfl | ⟨3, _⟩ => rfl)

/-- An index of a 16 × 1024 × 1 array is its batch and its row: the last coordinate is 0. -/
def idxEquivOut : S16x1024x1.Idx ≃ Fin 16 × Fin 1024 where
  toFun i := (i 0, i 1)
  invFun p := ix3 p.1 p.2 (0 : Fin 1)
  left_inv i := by
    funext d
    match d with
    | ⟨0, _⟩ => rfl
    | ⟨1, _⟩ => rfl
    | ⟨2, _⟩ => exact (Subsingleton.elim (α := Fin 1) _ _)
  right_inv _ := rfl

/-- What the call left in its output array, as a function of extended reals. -/
abbrev outArr (c : Dev nD) : S16x1024x1.Idx → EReal := W2 m c (Proc.devRef .tc main_v7)

/-- The program's result, as a function of extended reals on the one index of a scalar. -/
abbrev resArr (c : Dev nD) : S_.Idx → EReal := W3 m c (Proc.devRef .tc main_v9)

/-- The program's result: the sum over the batches and rows of what the call left in its output array, from zero,
    divided by 2^24. -/
theorem W3_result (c : Dev nD) :
    resArr m c = fun _ => Ideal.div (0 + ∑ b : Fin 16, ∑ t : Fin 1024, outArr m c (ix3 b t (0 : Fin 1))) Cert.Spec.cN := by
  have e : resArr m c
      = Host.divf (F := Ideal) (Host.reduceAdd (F := Ideal) (outArr m c) (constant (F := Ideal) S_ .f32 0x00000000#32)
          reducesTo_S16x1024x1_S_d0_1_2 h_S_) (constant (F := Ideal) S_ .f32 0x4B800000#32) := by
    dsimp only [resArr, outArr, W3, hostOps1]
    after_results
  rw [e]
  funext i
  have hsum : Host.reduceAdd (F := Ideal) (outArr m c) (constant (F := Ideal) S_ .f32 0x00000000#32)
        reducesTo_S16x1024x1_S_d0_1_2 h_S_ i
      = 0 + ∑ b : Fin 16, ∑ t : Fin 1024, outArr m c (ix3 b t (0 : Fin 1)) := by
    simp only [Host.reduceAdd, Ideal.hostReduceAdd_def]
    rw [Ideal.hostReduceAdd_total reducesTo_S16x1024x1_S_d0_1_2 (fun b => b.elim0) _ _ i]
    have h0 : constant (F := Ideal) S_ .f32 0x00000000#32 (Shape.Idx.first h_S_) = (0 : EReal) := Ideal.ofBits_zero_f32
    have hs : ∑ j : S16x1024x1.Idx, outArr m c j = ∑ b : Fin 16, ∑ t : Fin 1024, outArr m c (ix3 b t (0 : Fin 1)) := by
      rw [← Equiv.sum_comp idxEquivOut.symm (outArr m c), Fintype.sum_prod_type]
      rfl
    rw [h0, hs]
  show Ideal.div (Host.reduceAdd (F := Ideal) (outArr m c) (constant (F := Ideal) S_ .f32 0x00000000#32)
        reducesTo_S16x1024x1_S_d0_1_2 h_S_ i) Cert.Spec.cN = _
  rw [hsum]

end Cert.KernelIdeal.Hand

end
-- ==== Proof.KiRows.lean ====
/-
  What the kernel stores for one query row, read at an index, at the ideal values.

  The output block of a grid point is 1 × 128 × 1; its entry for query row r is, in terms of the four input blocks
  (the column of reciprocals, the 128 × 4 × 1024 distance components, the 1024 × 256 keys, the 128 × 256 queries):
  twice the row's squared norm times the sum over the keys of the weights, less twice the sum over the features of
  (the weights' product with the keys) times the query — the formula `Cert.Spec.blockRow`. The changes of float
  format around the matrix product are the identity; the matrix product into a zero accumulator and the lane sums are
  plain sums.
-/
import proofs.«177375_j43052752175789_1_alg».proof.Proof.KiBody
import proofs.«177375_j43052752175789_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## Layout operations at coordinates -/

section Layout
variable {α : Type}

/-- A `[1, b, 1]` array spread over `[a, b, c]` reads, at `(p, k, q)`, its entry `(0, k, 0)`. -/
theorem broadcastTo_1b1_abc_apply {a b c : ℕ} (v : (⟨3, ![1, b, 1]⟩ : Shape).Idx → α)
    (h : (⟨3, ![1, b, 1]⟩ : Shape).Broadcasts ⟨3, ![a, b, c]⟩) (p : Fin a) (k : Fin b) (q : Fin c) :
    broadcastTo ⟨3, ![a, b, c]⟩ v h (ix3 p k q) = v (ix3 (0 : Fin 1) k (0 : Fin 1)) := by
  refine broadcastTo_apply v h (ix3 p k q) (ix3 (0 : Fin 1) k (0 : Fin 1)) fun ax => ?_
  match ax with
  | ⟨0, _⟩ => rfl
  | ⟨1, _⟩ =>
    show k.val = if b = 1 then 0 else k.val
    split
    · have := k.isLt; omega
    · rfl
  | ⟨2, _⟩ => rfl

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The lane sums -/

/-- The sum over the middle axis of a `128 × 4 × 1024` vector, at `(r, s)`: the four entries `(r, k, s)`. -/
theorem sumMid_apply (v : FVec Ideal S128x4x1024 .f32) (h : S128x4x1024.Reduces [1] S128x1024) (hφ : FKind.Formats .f32)
    (hacc : (0x00000000#32 : BitVec 32) = 0x00000000#32) (r : Fin 128) (s : Fin 1024) :
    multiReduction (F := Ideal) .add [1] S128x1024 v 0x00000000#32 h hφ hacc (ix2 r s) = ∑ k : Fin 4, v (ix3 r k s) := by
  refine (Ideal.multiReduction_add_single v 0x00000000#32 h hφ hacc (ix2 r s)).trans ?_
  refine Finset.sum_congr rfl fun k _ => congrArg v ?_
  funext c
  match c with
  | ⟨0, _⟩ => exact Fin.ext rfl
  | ⟨1, _⟩ => exact Fin.ext rfl
  | ⟨2, _⟩ => exact Fin.ext rfl

/-- The sum over the lanes of a `128 × 1024` vector, at `r`: the entries `(r, s)`. -/
theorem sumLanes1024_apply (v : FVec Ideal S128x1024 .f32) (h : S128x1024.Reduces [1] S128) (hφ : FKind.Formats .f32)
    (hacc : (0x00000000#32 : BitVec 32) = 0x00000000#32) (r : Fin 128) :
    multiReduction (F := Ideal) .add [1] S128 v 0x00000000#32 h hφ hacc (ix1 r) = ∑ s : Fin 1024, v (ix2 r s) := by
  refine (Ideal.multiReduction_add_single v 0x00000000#32 h hφ hacc (ix1 r)).trans ?_
  refine Finset.sum_congr rfl fun k _ => congrArg v ?_
  funext c
  match c with
  | ⟨0, _⟩ => exact Fin.ext rfl
  | ⟨1, _⟩ => exact Fin.ext rfl

/-- The sum over the lanes of a `128 × 256` vector, at `r`: the entries `(r, d)`. -/
theorem sumLanes256_apply (v : FVec Ideal S128x256 .f32) (h : S128x256.Reduces [1] S128) (hφ : FKind.Formats .f32)
    (hacc : (0x00000000#32 : BitVec 32) = 0x00000000#32) (r : Fin 128) :
    multiReduction (F := Ideal) .add [1] S128 v 0x00000000#32 h hφ hacc (ix1 r) = ∑ d : Fin 256, v (ix2 r d) := by
  refine (Ideal.multiReduction_add_single v 0x00000000#32 h hφ hacc (ix1 r)).trans ?_
  refine Finset.sum_congr rfl fun k _ => congrArg v ?_
  funext c
  match c with
  | ⟨0, _⟩ => exact Fin.ext rfl
  | ⟨1, _⟩ => exact Fin.ext rfl

/-! ## The matrix product -/

theorem lhs_dot_0 (i : S128x256.Idx) (q : dot_S128x1024_S1024x256_S128x256_1_0_0_1_n_n.contr.Idx) :
    (dot_S128x1024_S1024x256_S128x256_1_0_0_1_n_n.lhsIdx i q 0).val = (i 0).val := by
  unfold DotDims.lhsIdx
  rw [dif_neg (show ¬(0 : Fin S128x1024.rank) ∈ dot_S128x1024_S1024x256_S128x256_1_0_0_1_n_n.lhsBatch by decide), dif_pos (show (0 : Fin S128x1024.rank) ∈ dot_S128x1024_S1024x256_S128x256_1_0_0_1_n_n.lhsNonContracting by decide)]
  rfl
theorem lhs_dot_1 (i : S128x256.Idx) (q : dot_S128x1024_S1024x256_S128x256_1_0_0_1_n_n.contr.Idx) :
    (dot_S128x1024_S1024x256_S128x256_1_0_0_1_n_n.lhsIdx i q 1).val = (q ⟨0, by decide⟩).val :=
  dot_S128x1024_S1024x256_S128x256_1_0_0_1_n_n.lhsIdx_val_of_single rfl i q
theorem rhs_dot_0 (i : S128x256.Idx) (q : dot_S128x1024_S1024x256_S128x256_1_0_0_1_n_n.contr.Idx) :
    (dot_S128x1024_S1024x256_S128x256_1_0_0_1_n_n.rhsIdx i q 0).val = (q ⟨0, by decide⟩).val :=
  dot_S128x1024_S1024x256_S128x256_1_0_0_1_n_n.rhsIdx_val_of_single rfl i q
theorem rhs_dot_1 (i : S128x256.Idx) (q : dot_S128x1024_S1024x256_S128x256_1_0_0_1_n_n.contr.Idx) :
    (dot_S128x1024_S1024x256_S128x256_1_0_0_1_n_n.rhsIdx i q 1).val = (i 1).val := by
  unfold DotDims.rhsIdx
  rw [dif_neg (show ¬(1 : Fin S1024x256.rank) ∈ dot_S128x1024_S1024x256_S128x256_1_0_0_1_n_n.rhsBatch by decide), dif_pos (show (1 : Fin S1024x256.rank) ∈ dot_S128x1024_S1024x256_S128x256_1_0_0_1_n_n.rhsNonContracting by decide)]
  rfl

/-- The product of a `128 × 1024` by a `1024 × 256` matrix into a zero accumulator, at `(r, d)`: the sum over
    `s` of `(r, s)` times `(s, d)`. -/
theorem matmul_zero_apply (a : FVec Ideal S128x1024 .bf16) (b : FVec Ideal S1024x256 .bf16) (r : Fin 128) (d : Fin 256) :
    matmul dot_S128x1024_S1024x256_S128x256_1_0_0_1_n_n none a b (constant (F := Ideal) S128x256 .f32 0x00000000#32) (ix2 r d)
      = ∑ s : Fin 1024, a (ix2 r s) * b (ix2 s d) := by
  simp only [matmul]
  rw [Ideal.matmul_constant_zero_apply, ← Equiv.sum_comp (ValueIdx.contrEquiv1 dot_S128x1024_S1024x256_S128x256_1_0_0_1_n_n 1024 rfl rfl).symm]
  refine Finset.sum_congr rfl fun k _ => ?_
  have hk := ValueIdx.contrEquiv1_symm_val dot_S128x1024_S1024x256_S128x256_1_0_0_1_n_n 1024 rfl rfl k
  have el : dot_S128x1024_S1024x256_S128x256_1_0_0_1_n_n.lhsIdx (ix2 r d) ((ValueIdx.contrEquiv1 dot_S128x1024_S1024x256_S128x256_1_0_0_1_n_n 1024 rfl rfl).symm k) = ix2 r k := funext fun c => Fin.ext (by
    match c with
    | ⟨0, _⟩ => exact lhs_dot_0 _ _
    | ⟨1, _⟩ => exact (lhs_dot_1 _ _).trans hk)
  have er : dot_S128x1024_S1024x256_S128x256_1_0_0_1_n_n.rhsIdx (ix2 r d) ((ValueIdx.contrEquiv1 dot_S128x1024_S1024x256_S128x256_1_0_0_1_n_n 1024 rfl rfl).symm k) = ix2 k d := funext fun c => Fin.ext (by
    match c with
    | ⟨0, _⟩ => exact (rhs_dot_0 _ _).trans hk
    | ⟨1, _⟩ => exact rhs_dot_1 _ _)
  rw [el, er]

/-! ## The weights -/

/-- The exponential of the lane sum of the squared distance components times the reciprocals, at `(r, s)`, is the
    block's weight of key row `s` for query row `r`. -/
theorem weight_apply (v0 : Vec Ideal S1x128x4x1024 .f32) (v2 : Vec Ideal S4x1 .f32)
    (h1 : S1x128x4x1024.ShapeCasts S128x4x1024) (h2 : S4x1.ShapeCasts S4x1) (h3 : S4x1.ShapeCasts S1x4x1)
    (hb : S1x4x1.Broadcasts S128x4x1024) (hr : S128x4x1024.Reduces [1] S128x1024) (hφ : FKind.Formats .f32)
    (hacc : (0x00000000#32 : BitVec 32) = 0x00000000#32) (r : Fin 128) (s : Fin 1024) :
    exp (multiReduction (F := Ideal) .add [1] S128x1024
        (mulf (mulf (shapeCast S128x4x1024 v0 h1) (shapeCast S128x4x1024 v0 h1))
          (broadcastTo S128x4x1024 (shapeCast S1x4x1 (shapeCast S4x1 v2 h2) h3) hb))
        0x00000000#32 hr hφ hacc) (ix2 r s)
      = Cert.Spec.blockW (fun k => v2 (ix2 k (0 : Fin 1))) (fun r k s => v0 (ix4 (0 : Fin 1) r k s)) r s := by
  unfold Cert.Spec.blockW
  show Ideal.exp _ = Ideal.exp _
  refine congrArg Ideal.exp ?_
  refine (sumMid_apply _ hr hφ hacc r s).trans ?_
  refine Finset.sum_congr rfl fun k _ => ?_
  show (shapeCast S128x4x1024 v0 h1 (ix3 r k s) * shapeCast S128x4x1024 v0 h1 (ix3 r k s))
      * broadcastTo S128x4x1024 (shapeCast S1x4x1 (shapeCast S4x1 v2 h2) h3) hb (ix3 r k s) = _
  rw [shapeCast_1abc_abc_apply v0 h1 r k s, broadcastTo_1b1_abc_apply _ hb r k s,
    shapeCast_ab_1ab_apply _ h3 (0 : Fin 1) k (0 : Fin 1), shapeCast_self]

/-! ## The payload at a row -/

/-- The stored vector at query row `r`, from the four loaded blocks. -/
theorem pay_apply (v0 : Vec Ideal S1x128x4x1024 .f32) (v2 : Vec Ideal S4x1 .f32) (v12 : Vec Ideal S1x1024x256 .f32)
    (v17 : Vec Ideal S1x128x256 .f32) (r : Fin 128) :
    k0_pay1 (F := Ideal) v0 v2 v12 v17 (ix3 (0 : Fin 1) r (0 : Fin 1))
      = Cert.Spec.blockRow (fun k => v2 (ix2 k (0 : Fin 1))) (fun r k s => v0 (ix4 (0 : Fin 1) r k s))
          (fun s d => v12 (ix3 (0 : Fin 1) s d)) (fun r d => v17 (ix3 (0 : Fin 1) r d)) r := by
  unfold k0_pay1
  refine (shapeCast_ab_1ab_apply _ _ (0 : Fin 1) r (0 : Fin 1)).trans ?_
  unfold Cert.Spec.blockRow
  show (_ * _) * _ - _ * _ = _
  refine congrArg₂ (· - ·) (congrArg₂ (· * ·) (congrArg₂ (· * ·) rfl ?_) ?_) (congrArg₂ (· * ·) rfl ?_)
  · -- the row's squared norm
    refine (shapeCast_a_a1_apply _ _ r (0 : Fin 1)).trans ?_
    refine (sumLanes256_apply _ _ _ _ r).trans ?_
    refine Finset.sum_congr rfl fun d _ => ?_
    exact congrArg₂ (· * ·) (shapeCast_1ab_ab_apply v17 _ r d) (shapeCast_1ab_ab_apply v17 _ r d)
  · -- the sum of the weights
    refine (shapeCast_a_a1_apply _ _ r (0 : Fin 1)).trans ?_
    refine (sumLanes1024_apply _ _ _ _ r).trans ?_
    exact Finset.sum_congr rfl fun s _ => weight_apply v0 v2 _ _ _ _ _ _ _ r s
  · -- the weights' product with the keys, against the query
    refine (shapeCast_a_a1_apply _ _ r (0 : Fin 1)).trans ?_
    refine (sumLanes256_apply _ _ _ _ r).trans ?_
    refine Finset.sum_congr rfl fun d _ => ?_
    refine congrArg₂ (· * ·) ((matmul_zero_apply _ _ r d).trans ?_) (shapeCast_1ab_ab_apply v17 _ r d)
    refine Finset.sum_congr rfl fun s _ => ?_
    exact congrArg₂ (· * ·) (weight_apply v0 v2 _ _ _ _ _ _ _ r s) (shapeCast_1ab_ab_apply v12 _ s d)

theorem zeros2 : (![0, 0] : Fin 2 → Nat) = fun _ => 0 :=
  funext fun a => match a with | ⟨0, _⟩ => rfl | ⟨1, _⟩ => rfl
theorem zeros3 : (![0, 0, 0] : Fin 3 → Nat) = fun _ => 0 :=
  funext fun a => match a with | ⟨0, _⟩ => rfl | ⟨1, _⟩ => rfl | ⟨2, _⟩ => rfl
theorem zeros4 : (![0, 0, 0, 0] : Fin 4 → Nat) = fun _ => 0 :=
  funext fun a => match a with | ⟨0, _⟩ => rfl | ⟨1, _⟩ => rfl | ⟨2, _⟩ => rfl | ⟨3, _⟩ => rfl

/-- The stored block at query row `r` is the block formula of the four input blocks read at their coordinates. -/
theorem rowBlock_apply (x0 : Vec Ideal S4x1 .f32) (x1 : Vec Ideal S1x128x4x1024 .f32) (x2 : Vec Ideal S1x1024x256 .f32)
    (x3 : Vec Ideal S1x128x256 .f32) (r : Fin 128) :
    rowBlock (F := Ideal) x0 x1 x2 x3 (ix3 (0 : Fin 1) r (0 : Fin 1))
      = Cert.Spec.blockRow (fun k => x0 (ix2 k (0 : Fin 1))) (fun r k s => x1 (ix4 (0 : Fin 1) r k s))
          (fun s d => x2 (ix3 (0 : Fin 1) s d)) (fun r d => x3 (ix3 (0 : Fin 1) r d)) r := by
  unfold rowBlock
  rw [View.canon_unit_zero zeros3]
  simp only [View.ld_unit_zero (S := S1x128x4x1024) zeros4, View.ld_unit_zero (S := S4x1) zeros2,
    View.ld_unit_zero (S := S1x1024x256) zeros3, View.ld_unit_zero (S := S1x128x256) zeros3]
  exact pay_apply x1 x0 x2 x3 r

end Cert.KernelIdeal.Hand

end
-- ==== Proof.KiBlocks.lean ====
/-
  From the blocks to the array: what the call leaves in its output array, entry by entry.

  The grid has 16 · 8 points; point (b, q) writes back the 128 rows q·128 … q·128 + 127 of batch b of the output array,
  so row t of batch b is written exactly once, by the point (b, t / 128), as its block's row t mod 128. At that point
  the distance block holds rows q·128 + r of batch b of the swapped components, the key block all of batch b of z, the
  query block rows q·128 + r of batch b of z, and the reciprocals' block the whole column. Hence entry (b, t) of the
  output array is the row formula at (b, t) over the whole arrays.
-/
import proofs.«177375_j43052752175789_1_alg».proof.Proof.KiBody
import proofs.«177375_j43052752175789_1_alg».proof.Proof.KiRows
import proofs.«177375_j43052752175789_1_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

/-- The kernel's number for row t of batch b, over whole arrays: I the reciprocals, G the swapped distance components
    (batch, query row, component, key row), Z the rows of z. -/
def rowAt (I : Fin 4 → EReal) (G : Fin 16 → Fin 1024 → Fin 4 → Fin 1024 → EReal) (Z : Fin 16 → Fin 1024 → Fin 256 → EReal)
    (b : Fin 16) (t : Fin 1024) : EReal :=
  ((Cert.Spec.c2 * ∑ d : Fin 256, Z b t d * Z b t d) * ∑ s : Fin 1024, Ideal.exp (∑ k : Fin 4, (G b t k s * G b t k s) * I k))
    - Cert.Spec.c2 * ∑ d : Fin 256, (∑ s : Fin 1024, Ideal.exp (∑ k : Fin 4, (G b t k s * G b t k s) * I k) * Z b s d) * Z b t d

variable (m : (ℓ : Loc nD τ sig) → Buf (Elt Ideal) ℓ)

/-! ## The index maps over the grid -/

/-- Point t of the grid is batch t / 8, tile t mod 8: the output's, the distances' and the queries' blocks sit at
    (batch, tile), the keys' at (batch, 0), the reciprocals' at the origin. -/
theorem tile_facts : ∀ t : Fin cfg0.N,
    win0_4.index t (0 : Fin 3) = t.val / 8 ∧ win0_4.index t (1 : Fin 3) = t.val % 8 ∧ win0_4.index t (2 : Fin 3) = 0
    ∧ win0_0.index t (0 : Fin 2) = 0 ∧ win0_0.index t (1 : Fin 2) = 0
    ∧ win0_1.index t (0 : Fin 4) = t.val / 8 ∧ win0_1.index t (1 : Fin 4) = t.val % 8
    ∧ win0_1.index t (2 : Fin 4) = 0 ∧ win0_1.index t (3 : Fin 4) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, _)

/-! ## The input blocks at a point, read off their arrays -/

/-- The reciprocals' block is the whole column. -/
theorem inv_apply (c : Dev nD) (t : Fin cfg0.N) (x : S4x1.Idx) :
    (iblk (F := Ideal) m c 0 t : Vec Ideal S4x1 .f32) x = (V m c main_v5 : S4x1.Idx → EReal) x := by
  obtain ⟨-, -, -, e0, e1, -⟩ := tile_facts t
  show (V m c main_v5 : S4x1.Idx → EReal) (((cfg0.win 0).blk t).view.emb x) = _
  refine congrArg _ ?_
  funext a
  apply Fin.ext
  match a with
  | ⟨0, _⟩ => show win0_0.index t (0 : Fin 2) * 4 + 1 * (x 0).val = (x 0).val; rw [e0]; omega
  | ⟨1, _⟩ => show win0_0.index t (1 : Fin 2) * 1 + 1 * (x 1).val = (x 1).val; rw [e1]; omega

/-- The distance block at batch t / 8, tile t mod 8: query rows (t mod 8) · 128 + r of that batch. -/
theorem dist_apply (c : Dev nD) (t : Fin cfg0.N) (x : S1x128x4x1024.Idx) (i : S16x1024x4x1024.Idx)
    (h0 : (i 0).val = t.val / 8) (h1 : (i 1).val = t.val % 8 * 128 + (x 1).val) (h2 : (i 2).val = (x 2).val)
    (h3 : (i 3).val = (x 3).val) :
    (iblk (F := Ideal) m c 1 t : Vec Ideal S1x128x4x1024 .f32) x = (V m c main_v6 : S16x1024x4x1024.Idx → EReal) i := by
  obtain ⟨-, -, -, -, -, e0, e1, e2, e3, -⟩ := tile_facts t
  show (V m c main_v6 : S16x1024x4x1024.Idx → EReal) (((cfg0.win 1).blk t).view.emb x) = _
  refine congrArg _ ?_
  funext a
  apply Fin.ext
  match a with
  | ⟨0, _⟩ => show win0_1.index t (0 : Fin 4) * 1 + 1 * (x 0).val = (i 0).val; have hx : (x 0).val < 1 := (x 0).isLt; rw [e0, h0]; omega
  | ⟨1, _⟩ => show win0_1.index t (1 : Fin 4) * 128 + 1 * (x 1).val = (i 1).val; rw [e1, h1]; omega
  | ⟨2, _⟩ => show win0_1.index t (2 : Fin 4) * 4 + 1 * (x 2).val = (i 2).val; rw [e2, h2]; omega
  | ⟨3, _⟩ => show win0_1.index t (3 : Fin 4) * 1024 + 1 * (x 3).val = (i 3).val; rw [e3, h3]; omega

/-- The key block at batch t / 8: all rows of z of that batch. -/
theorem keys_apply (c : Dev nD) (t : Fin cfg0.N) (x : S1x1024x256.Idx) (i : S16x1024x256.Idx)
    (h0 : (i 0).val = t.val / 8) (h1 : (i 1).val = (x 1).val) (h2 : (i 2).val = (x 2).val) :
    (iblk (F := Ideal) m c 2 t : Vec Ideal S1x1024x256 .f32) x = (V m c main_arg0 : S16x1024x256.Idx → EReal) i := by
  obtain ⟨-, -, -, -, -, -, -, -, -, e0, e1, e2, -⟩ := tile_facts t
  show (V m c main_arg0 : S16x1024x256.Idx → EReal) (((cfg0.win 2).blk t).view.emb x) = _
  refine congrArg _ ?_
  funext a
  apply Fin.ext
  match a with
  | ⟨0, _⟩ => show win0_2.index t (0 : Fin 3) * 1 + 1 * (x 0).val = (i 0).val; have hx : (x 0).val < 1 := (x 0).isLt; rw [e0, h0]; omega
  | ⟨1, _⟩ => show win0_2.index t (1 : Fin 3) * 1024 + 1 * (x 1).val = (i 1).val; rw [e1, h1]; omega
  | ⟨2, _⟩ => show win0_2.index t (2 : Fin 3) * 256 + 1 * (x 2).val = (i 2).val; rw [e2, h2]; omega

/-- The query block at batch t / 8, tile t mod 8: rows (t mod 8) · 128 + r of z of that batch. -/
theorem query_apply (c : Dev nD) (t : Fin cfg0.N) (x : S1x128x256.Idx) (i : S16x1024x256.Idx)
    (h0 : (i 0).val = t.val / 8) (h1 : (i 1).val = t.val % 8 * 128 + (x 1).val) (h2 : (i 2).val = (x 2).val) :
    (iblk (F := Ideal) m c 3 t : Vec Ideal S1x128x256 .f32) x = (V m c main_arg0 : S16x1024x256.Idx → EReal) i := by
  obtain ⟨-, -, -, -, -, -, -, -, -, -, -, -, e0, e1, e2⟩ := tile_facts t
  show (V m c main_arg0 : S16x1024x256.Idx → EReal) (((cfg0.win 3).blk t).view.emb x) = _
  refine congrArg _ ?_
  funext a
  apply Fin.ext
  match a with
  | ⟨0, _⟩ => show win0_3.index t (0 : Fin 3) * 1 + 1 * (x 0).val = (i 0).val; have hx : (x 0).val < 1 := (x 0).isLt; rw [e0, h0]; omega
  | ⟨1, _⟩ => show win0_3.index t (1 : Fin 3) * 128 + 1 * (x 1).val = (i 1).val; rw [e1, h1]; omega
  | ⟨2, _⟩ => show win0_3.index t (2 : Fin 3) * 256 + 1 * (x 2).val = (i 2).val; rw [e2, h2]; omega

/-! ## One row of a block is one row of the array -/

/-- The block formula over blocks that read the arrays at batch b, row t' is the row formula at (b, t'). -/
theorem blockRow_eq_rowAt (x0 : Vec Ideal S4x1 .f32) (x1 : Vec Ideal S1x128x4x1024 .f32) (x2 : Vec Ideal S1x1024x256 .f32)
    (x3 : Vec Ideal S1x128x256 .f32) (I : Fin 4 → EReal) (G : Fin 16 → Fin 1024 → Fin 4 → Fin 1024 → EReal)
    (Z : Fin 16 → Fin 1024 → Fin 256 → EReal) (b : Fin 16) (t' : Fin 1024) (r : Fin 128)
    (h0 : ∀ k, x0 (ix2 k (0 : Fin 1)) = I k) (h1 : ∀ k s, x1 (ix4 (0 : Fin 1) r k s) = G b t' k s)
    (h2 : ∀ s d, x2 (ix3 (0 : Fin 1) s d) = Z b s d) (h3 : ∀ d, x3 (ix3 (0 : Fin 1) r d) = Z b t' d) :
    Cert.Spec.blockRow (fun k => x0 (ix2 k (0 : Fin 1))) (fun r k s => x1 (ix4 (0 : Fin 1) r k s))
        (fun s d => x2 (ix3 (0 : Fin 1) s d)) (fun r d => x3 (ix3 (0 : Fin 1) r d)) r
      = rowAt I G Z b t' := by
  unfold Cert.Spec.blockRow Cert.Spec.blockW rowAt
  simp only [h0, h1, h2, h3]

/-- The arrays as the call finds them, at coordinates: the reciprocals, the swapped distance components, z. -/
abbrev invArr (c : Dev nD) : Fin 4 → EReal := fun k => (V m c main_v5 : S4x1.Idx → EReal) (ix2 k (0 : Fin 1))
abbrev distArr (c : Dev nD) : Fin 16 → Fin 1024 → Fin 4 → Fin 1024 → EReal :=
  fun b t k s => (V m c main_v6 : S16x1024x4x1024.Idx → EReal) (ix4 b t k s)
abbrev zArr (c : Dev nD) : Fin 16 → Fin 1024 → Fin 256 → EReal :=
  fun b t d => (V m c main_arg0 : S16x1024x256.Idx → EReal) (ix3 b t d)

/-- Row r of the output block at point t is the row formula at batch t / 8, row (t mod 8) · 128 + r. -/
theorem tile_row (c : Dev nD) (t : Fin cfg0.N) (r : Fin 128) (b : Fin 16) (t' : Fin 1024)
    (hb : b.val = t.val / 8) (ht : t'.val = t.val % 8 * 128 + r.val) :
    rowBlock (F := Ideal) (iblk m c 0 t) (iblk m c 1 t) (iblk m c 2 t) (iblk m c 3 t) (ix3 (0 : Fin 1) r (0 : Fin 1))
      = rowAt (invArr m c) (distArr m c) (zArr m c) b t' := by
  refine (rowBlock_apply _ _ _ _ r).trans (blockRow_eq_rowAt _ _ _ _ _ _ _ b t' r ?_ ?_ ?_ ?_)
  · intro k; exact inv_apply m c t _
  · intro k s; exact dist_apply m c t _ _ hb ht rfl rfl
  · intro s d; exact keys_apply m c t _ _ hb rfl rfl
  · intro d; exact query_apply m c t _ _ hb ht rfl

/-! ## The output array -/

/-- The whole output array: entry (b, t, 0) is the row formula at (b, t). -/
def rowsArr (c : Dev nD) : S16x1024x1.Idx → EReal :=
  fun i => rowAt (invArr m c) (distArr m c) (zArr m c) ⟨(i 0).val, (i 0).isLt⟩ ⟨(i 1).val, (i 1).isLt⟩

/-- An entry of the output block at point t is the array's entry at batch t / 8, row (t mod 8) · 128 + the block's row. -/
theorem tile_entry (c : Dev nD) (t : Fin cfg0.N) (j : S1x128x1.Idx) (i : S16x1024x1.Idx)
    (h0 : (i 0).val = t.val / 8) (h1 : (i 1).val = t.val % 8 * 128 + (j 1).val) :
    rowBlock (F := Ideal) (iblk m c 0 t) (iblk m c 1 t) (iblk m c 2 t) (iblk m c 3 t) j = rowsArr m c i := by
  obtain ⟨a, r, e, rfl⟩ : ∃ (a : Fin 1) (r : Fin 128) (e : Fin 1), j = ix3 a r e := ⟨j 0, j 1, j 2, eq_ix3 j⟩
  obtain rfl : a = 0 := Subsingleton.elim _ _
  obtain rfl : e = 0 := Subsingleton.elim _ _
  exact tile_row m c t r _ _ h0 h1

/-- What point t writes back is its block of the output array. -/
theorem flushed_eq (c : Dev nD) (t : Fin cfg0.N) :
    (dats (F := Ideal) m 0 c).flushed 4 t = ((cfg0.win 4).blk t).view.read (Elt Ideal) (rowsArr m c) := by
  obtain ⟨e0, e1, e2, -⟩ := tile_facts t
  show (cfg0.win 4).cut (grid0.coords t) ((dats m 0 c).after 4 t) = _
  rw [after4]
  funext y
  show rowBlock (F := Ideal) (iblk m c 0 t) (iblk m c 1 t) (iblk m c 2 t) (iblk m c 3 t) ((cfg0.win 4).xinj (grid0.coords t) y)
      = rowsArr m c (((cfg0.win 4).blk t).view.emb y)
  refine tile_entry m c t _ _ ?_ ?_
  · show win0_4.index t (0 : Fin 3) * 1 + 1 * (y 0).val = t.val / 8
    have hy : (y 0).val < 1 := (y 0).isLt
    rw [e0]; omega
  · show win0_4.index t (1 : Fin 3) * 128 + 1 * (y 1).val = t.val % 8 * 128 + (y 1).val
    rw [e1]; omega

/-- An index of the array is in point t's block iff each coordinate is in the block's range on its axis. -/
theorem mem_tile (t : Fin cfg0.N) (i : S16x1024x1.Idx) :
    i ∈ ((cfg0.win 4).blk t).view.set ↔ ∀ a : Fin 3, win0_4.index t a * S1x128x1.size a ≤ (i a).val
      ∧ (i a).val < win0_4.index t a * S1x128x1.size a + S1x128x1.size a := by
  show i ∈ ((View.whole main_v7).slice (win0_4.rect t)).set ↔ _
  rw [View.set_slice_whole, Rect.mem_set_unit]
  exact Iff.rfl

/-- Row t of batch b is in the block of the point b · 8 + t / 128. -/
theorem rows_covered (i : S16x1024x1.Idx) :
    ∃ t : Fin cfg0.N, (cfg0.win 4).flush t = true ∧ i ∈ ((cfg0.win 4).blk t).view.set := by
  have hi0 : (i 0).val < 16 := (i 0).isLt
  have hi1 : (i 1).val < 1024 := (i 1).isLt
  have hi2 : (i 2).val < 1 := (i 2).isLt
  have hN : cfg0.N = 128 := N_0
  obtain ⟨t, ht⟩ : ∃ t : Fin cfg0.N, t.val = (i 0).val * 8 + (i 1).val / 128 :=
    ⟨⟨(i 0).val * 8 + (i 1).val / 128, by rw [hN]; omega⟩, rfl⟩
  obtain ⟨e0, e1, e2, -⟩ := tile_facts t
  refine ⟨t, flush0_4 t, ?_⟩
  rw [mem_tile]
  intro a
  match a with
  | ⟨0, _⟩ => show win0_4.index t (0 : Fin 3) * 1 ≤ (i 0).val ∧ (i 0).val < win0_4.index t (0 : Fin 3) * 1 + 1; rw [e0]; omega
  | ⟨1, _⟩ => show win0_4.index t (1 : Fin 3) * 128 ≤ (i 1).val ∧ (i 1).val < win0_4.index t (1 : Fin 3) * 128 + 128; rw [e1]; omega
  | ⟨2, _⟩ => show win0_4.index t (2 : Fin 3) * 1 ≤ (i 2).val ∧ (i 2).val < win0_4.index t (2 : Fin 3) * 1 + 1; rw [e2]; omega

/-- The output array after the last grid point. -/
theorem rows_final (c : Dev nD) : (dats (F := Ideal) m 0 c).arrAt 4 cfg0.N = rowsArr m c :=
  (dats m 0 c).arrAt_eq_of_cover 4 (rowsArr m c) (fun t _ => flushed_eq m c t) rows_covered

/-- Entry (b, t) of the output array after the last grid point. -/
theorem out_eq (c : Dev nD) (b : Fin 16) (t : Fin 1024) :
    ((dats (F := Ideal) m 0 c).arrAt 4 cfg0.N : S16x1024x1.Idx → EReal) (ix3 b t (0 : Fin 1))
      = rowAt (fun k => (V m c main_v5 : S4x1.Idx → EReal) (ix2 k (0 : Fin 1)))
          (fun b t k s => (V m c main_v6 : S16x1024x4x1024.Idx → EReal) (ix4 b t k s))
          (fun b t d => (V m c main_arg0 : S16x1024x256.Idx → EReal) (ix3 b t d)) b t := by
  exact (congrFun (rows_final m c) (ix3 b t (0 : Fin 1))).trans rfl

end Cert.KernelIdeal.Hand

end
-- ==== Proof.KiRun.lean ====
/-
  The launch: @main as host operations, the call, host operations.

  Between two of these three items the core holds every unscoped buffer whole at a known valuation (at launch; after
  the nine operations before the call; after the call, where only the output array has changed; after the four
  operations that follow), its generator register, and owes no one anything. The call takes its arrays out of the
  unscoped buffers — z's buffer split between its two windows — and puts them back at its exit; the register goes
  through the region's invariant. At the end every unscoped buffer is read back at the last valuation.
-/
import proofs.«177375_j43052752175789_1_alg».proof.Proof.KiVals
import Idealize.ShloMosaic.Lib.Pipeline.Frame
import Idealize.ShloMosaic.Lib.Pipeline.Regions

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No prefetched table. -/
abbrev adm : (p : Fin 1) → (pcfgs (F := F) p).Adm := fun p => (cfgs p).toPCfg_adm
abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the generator register at some state, and owing nothing. -/
abbrev R (c : Dev nD) : sProp 𝕄 := iprop((∃ r, prngReg c r) ∗ ∃ W, owes (c : Thread nD τ) (0 : CellTallies nD τ sig Unit) W)

/-- A line of host operations as a segment over all unscoped buffers from the valuation `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- The call as a segment: entered from every unscoped buffer at `W1`, left at `W2`. -/
def reg : Pipeline.RegionSeg (pcfgs (F := F)) adm (dats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := arrays_entry m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := arrays_exit m c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main's three items in order. -/
abbrev segs : List (Pipeline.Seg (pcfgs (F := F)) adm (dats m) () defs₀ 𝒱₀ L lv) :=
  [ .host (hseg hostOps0 hostOps0_sub hostOps0_fresh (W0 m)),
    .region (reg m),
    .host (hseg hostOps1 hostOps1_sub hostOps1_fresh (W2 m)) ]

/-- @main is the run of the three. -/
theorem main_run (c : Dev nD) : main (F := F) c = Pipeline.Seg.run (segs m) := (main_chain c).trans (by chain_rfl)

/-- The last thread state without what the core owes: every unscoped buffer at the last valuation, the register. -/
abbrev Tₙ (c : Dev nD) : sProp 𝕄 := iprop(StableHlo.held (c : Thread nD τ) (Pipeline.ucRefs τ sig) (W3 m c) ∗ ∃ r, prngReg c r)

set_option backward.isDefEq.respectTransparency.types false in
/-- From any memory with zero counters every weakly fair execution of @main terminates, nothing faulting, and every
    final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m c b) :=
  Pipeline.θ_run_regions_kit (pcfgs (F := F)) adm (dats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun c =>
      show iprop(StableHlo.held (c : Thread nD τ) (Pipeline.ucRefs τ sig) (W3 m c) ∗ R c)
        ⊢ iprop(Tₙ m c ∗ ∃ W, owes (c : Thread nD τ) (0 : CellTallies nD τ sig Unit) W) from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

/-- An unscoped TensorCore reference is among those read back at the end. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME, at any float values: every weakly fair execution of @main terminates, nothing faulting, with the three
    arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_arg0 m c),
     (h c _ (mem_uc main_arg1 (by decide))).trans (W3_arg1 m c),
     (h c _ (mem_uc main_arg2 (by decide))).trans (W3_arg2 m c)⟩) (run_all m ρ)

end Cert.KernelIdeal.Hand

end
-- ==== Proof.KiValue.lean ====
/-
  The idealized kernel's result is the closed formula `Cert.Spec.kLoss` of its three inputs.

  The result is the sum, from zero, of the output array's 16 · 1024 entries, divided by 2^24. Entry (b, t) is the row
  formula over the arrays the call was handed: the column of reciprocals 1 / ((2 σ_k) σ_k), the distance components
  with their last two axes swapped (so that reading them at (t, k, s) gives component k of the pair (t, s)), and z.
-/
import proofs.«177375_j43052752175789_1_alg».proof.Proof.KiHost
import proofs.«177375_j43052752175789_1_alg».proof.Proof.KiBlocks
import proofs.«177375_j43052752175789_1_alg».proof.Proof.KiRun

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg)

/-- The three inputs read at coordinates. -/
abbrev zOf (c : Dev nD) : Fin 16 → Fin 1024 → Fin 256 → EReal :=
  fun b t d => (m ((c : Thread nD τ).loc main_arg0) : S16x1024x256.Idx → EReal) (ix3 b t d)
abbrev gOf (c : Dev nD) : Fin 16 → Fin 1024 → Fin 1024 → Fin 4 → EReal :=
  fun b t s k => (m ((c : Thread nD τ).loc main_arg1) : S16x1024x1024x4.Idx → EReal) (ix4 b t s k)
abbrev σOf (c : Dev nD) : Fin 4 → EReal :=
  fun k => (m ((c : Thread nD τ).loc main_arg2) : S4.Idx → EReal) (ix1 k)

/-- Entry (b, t) of the output array the call leaves is the kernel's row formula of the inputs. -/
theorem out_row (c : Dev nD) (b : Fin 16) (t : Fin 1024) :
    outArr m c (ix3 b t (0 : Fin 1)) = Cert.Spec.kRow (zOf m c) (gOf m c) (σOf m c) b t := by
  have e : outArr m c = ((dats (F := Ideal) m 0 c).arrAt 4 cfg0.N : S16x1024x1.Idx → EReal) := W2_out m c
  have hI : (fun k => (V m c main_v5 : S4x1.Idx → EReal) (ix2 k (0 : Fin 1))) = Cert.Spec.kInv (σOf m c) :=
    funext (V_inv m c)
  have hG : (fun b t k s => (V m c main_v6 : S16x1024x4x1024.Idx → EReal) (ix4 b t k s)) = fun b t k s => gOf m c b t s k := by
    funext b t k s; exact V_dist m c b t k s
  have hZ : (fun b t d => (V m c main_arg0 : S16x1024x256.Idx → EReal) (ix3 b t d)) = zOf m c := by
    funext b t d; rw [V_keys]
  calc outArr m c (ix3 b t (0 : Fin 1))
      = rowAt (fun k => (V m c main_v5 : S4x1.Idx → EReal) (ix2 k (0 : Fin 1)))
          (fun b t k s => (V m c main_v6 : S16x1024x4x1024.Idx → EReal) (ix4 b t k s))
          (fun b t d => (V m c main_arg0 : S16x1024x256.Idx → EReal) (ix3 b t d)) b t := by rw [e]; exact out_eq m c b t
    _ = rowAt (Cert.Spec.kInv (σOf m c)) (fun b t k s => gOf m c b t s k) (zOf m c) b t := by rw [hI, hG, hZ]
    _ = Cert.Spec.kRow (zOf m c) (gOf m c) (σOf m c) b t := rfl

/-- The program's result. -/
theorem result_eq (c : Dev nD) :
    resArr m c = fun _ => Cert.Spec.kLoss (zOf m c) (gOf m c) (σOf m c) := by
  rw [W3_result]
  funext _
  unfold Cert.Spec.kLoss
  refine congrArg (fun x => Ideal.div (0 + x) Cert.Spec.cN) ?_
  exact Finset.sum_congr rfl fun b _ => Finset.sum_congr rfl fun t _ => out_row m c b t

/-- The run with the result named: every weakly fair execution of the idealized kernel's @main terminates, the result
    buffer at `kLoss` of the inputs, the three arguments as launched. -/
theorem run_value : θ_run defs (onTc (τ := τ) (main (F := Ideal))) ⟨m, fun _ => 0, ρ⟩ (fun r => ∀ c : Dev nD,
      r.2.mem ((c.tc : Thread nD τ).loc main_v9) = (fun _ => Cert.Spec.kLoss (zOf m c) (gOf m c) (σOf m c) : S_.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v9 (by decide))).trans (result_eq m c),
     (h c _ (mem_uc main_arg0 (by decide))).trans (W3_arg0 m c),
     (h c _ (mem_uc main_arg1 (by decide))).trans (W3_arg1 m c),
     (h c _ (mem_uc main_arg2 (by decide))).trans (W3_arg2 m c)⟩) (run_all m ρ)

end Cert.KernelIdeal.Hand

end
-- ==== Proof.RefValue.lean ====
/-
  The reference's result is the closed formula `Cert.Spec.rLoss` of its three inputs.

  The reference's @main is read one operation at a time (the generated read-at-an-index lemmas): the squared distance
  components divided by 2 σ_k σ_k and summed over k, the exponential, the row sums of z², the weights' row sums, the
  batched product of the weights with z, the per-batch sums, the mean over the batches and the division by 1024 · 1024.
-/
import proofs.«177375_j43052752175789_1_alg».proof.Proof.Gen.ReferenceIdeal.Run
import proofs.«177375_j43052752175789_1_alg».proof.Proof.Gen.ReferenceIdeal.Read
import proofs.«177375_j43052752175789_1_alg».proof.Proof.Spec
import Idealize.ShloMosaic.Lib.ValueIdx
import Idealize.ShloMosaic.PureOps.Ideal.Laws

noncomputable section

namespace Cert.RefValue

open Cert.ReferenceIdeal Cert.ReferenceIdeal.Gen Idealize.ShloMosaic Idealize.ShloMosaic.ValueIdx

open Cert.ReferenceIdeal.Read

/-! ## A sum over the last two axes of a 16 × 1024 × 256 array

The indices that keep the first coordinate `b` are the pairs (t, d): the sum over them is the double sum. -/

theorem hostReduceAdd_rows (h : S16x1024x256.ReducesTo [1, 2] S16) (x : S16x1024x256.Idx → EReal) (init : EReal)
    (b : Fin 16) :
    Ideal.hostReduceAdd h x init (ix1 b) = init + ∑ t : Fin 1024, ∑ d : Fin 256, x (ix3 b t d) := by
  unfold Ideal.hostReduceAdd
  have hdrop : ∀ i : S16x1024x256.Idx, (h.drop i 0 : Nat) = (i 0 : Nat) :=
    fun i => Shape.ReducesTo.drop_apply_val_of_eq h i 0 0
  have hmem : ∀ i : S16x1024x256.Idx, h.drop i = ix1 b ↔ (i 0 : Nat) = b.val := by
    intro i
    constructor
    · intro hi
      rw [← hdrop i, hi]
    · intro hi
      funext a
      match a with
      | ⟨0, _⟩ => exact Fin.ext ((hdrop i).trans hi)
  refine congrArg (init + ·) ?_
  refine (Finset.sum_nbij' (s := Finset.univ.filter fun i => h.drop i = ix1 b)
    (t := (Finset.univ : Finset (Fin 1024 × Fin 256))) (g := fun p => x (ix3 b p.1 p.2))
    (fun i => (i 1, i 2)) (fun p => ix3 b p.1 p.2) ?_ ?_ ?_ ?_ ?_).trans (Fintype.sum_prod_type _)
  · intro i _; exact Finset.mem_univ _
  · intro p _; exact Finset.mem_filter.2 ⟨Finset.mem_univ _, (hmem _).2 rfl⟩
  · intro i hi
    have hb := (hmem i).1 (Finset.mem_filter.1 hi).2
    funext a
    match a with
    | ⟨0, _⟩ => exact Fin.ext hb.symm
    | ⟨1, _⟩ => rfl
    | ⟨2, _⟩ => rfl
  · intro p _; rfl
  · intro i hi
    have hb := (hmem i).1 (Finset.mem_filter.1 hi).2
    refine congrArg x (funext fun a => ?_)
    match a with
    | ⟨0, _⟩ => exact Fin.ext hb
    | ⟨1, _⟩ => rfl
    | ⟨2, _⟩ => rfl

/-- A sum over the indices of a rank-1 array is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-! ## The composed index functions at coordinates -/

theorem idx45 (b : Fin 16) (t s : Fin 1024) (k : Fin 4) : idx_main_v4 (idx_main_v5 (ix4 b t s k)) = ix1 k :=
  funext fun a => Fin.ext (by match a with | ⟨0, _⟩ => rfl)

theorem idx7 (b : Fin 16) (t s : Fin 1024) (k : Fin 4) : idx_main_v7 (ix3 b t s) k = ix4 b t s k :=
  funext fun a => Fin.ext (by match a with | ⟨0, _⟩ => rfl | ⟨1, _⟩ => rfl | ⟨2, _⟩ => rfl | ⟨3, _⟩ => rfl)

theorem idx10 (b : Fin 16) (t : Fin 1024) (d : Fin 256) : idx_main_v10 (ix2 b t) d = ix3 b t d :=
  funext fun a => Fin.ext (by match a with | ⟨0, _⟩ => rfl | ⟨1, _⟩ => rfl | ⟨2, _⟩ => rfl)

theorem idx11 (b : Fin 16) (t s : Fin 1024) : idx_main_v11 (ix2 b t) s = ix3 b t s :=
  funext fun a => Fin.ext (by match a with | ⟨0, _⟩ => rfl | ⟨1, _⟩ => rfl | ⟨2, _⟩ => rfl)

theorem lidx12 (b : Fin 16) (t : Fin 1024) (d : Fin 256) (s : Fin 1024) : lidx_main_v12 (ix3 b t d) s = ix3 b t s :=
  funext fun a => Fin.ext (by match a with | ⟨0, _⟩ => rfl | ⟨1, _⟩ => rfl | ⟨2, _⟩ => rfl)

theorem ridx12 (b : Fin 16) (t : Fin 1024) (d : Fin 256) (s : Fin 1024) : ridx_main_v12 (ix3 b t d) s = ix3 b s d :=
  funext fun a => Fin.ext (by match a with | ⟨0, _⟩ => rfl | ⟨1, _⟩ => rfl | ⟨2, _⟩ => rfl)

theorem idx14 (b : Fin 16) (t : Fin 1024) : idx_main_v14 (ix1 b) t = ix2 b t :=
  funext fun a => Fin.ext (by match a with | ⟨0, _⟩ => rfl | ⟨1, _⟩ => rfl)

/-! ## The stages at coordinates -/

section Stages

variable (x0 : (⟨S16x1024x256, .f32⟩ : BufTy).Contents (Elt Ideal)) (x1 : (⟨S16x1024x1024x4, .f32⟩ : BufTy).Contents (Elt Ideal))
  (x2 : (⟨S4, .f32⟩ : BufTy).Contents (Elt Ideal))

/-- The divisor (2 σ_k) σ_k. -/
theorem v2_at (k : Fin 4) : val_main_v2 (F := Ideal) x2 (ix1 k) = (Spec.c2 * x2 (ix1 k)) * x2 (ix1 k) := by
  rw [val_main_v2_apply, val_main_v1_apply, val_main_v0_apply, val_main_cst_apply]; rfl

/-- One squared component over its divisor. -/
theorem v6_at (b : Fin 16) (t s : Fin 1024) (k : Fin 4) :
    val_main_v6 (F := Ideal) x1 x2 (ix4 b t s k)
      = Ideal.div (x1 (ix4 b t s k) * x1 (ix4 b t s k)) ((Spec.c2 * x2 (ix1 k)) * x2 (ix1 k)) := by
  rw [val_main_v6_apply, val_main_v3_apply, val_main_v5_apply, val_main_v4_apply, idx45, v2_at]; rfl

/-- The exponent: the sum over the four components. -/
theorem v7_at (b : Fin 16) (t s : Fin 1024) :
    val_main_v7 (F := Ideal) x1 x2 (ix3 b t s)
      = 0 + ∑ k : Fin 4, Ideal.div (x1 (ix4 b t s k) * x1 (ix4 b t s k)) ((Spec.c2 * x2 (ix1 k)) * x2 (ix1 k)) := by
  rw [val_main_v7_apply, val_main_cst_0_apply, Ideal.ofBits_def, Ideal.ofBits_zero_f32]
  simp only [idx7, v6_at]

/-- The weight. -/
theorem v8_at (b : Fin 16) (t s : Fin 1024) :
    val_main_v8 (F := Ideal) x1 x2 (ix3 b t s)
      = Spec.rW (fun b t s k => x1 (ix4 b t s k)) (fun k => x2 (ix1 k)) b t s := by
  rw [val_main_v8_apply, Ideal.hostUnary_exp_def, v7_at]; rfl

/-- The squared norm of row t of batch b. -/
theorem v10_at (b : Fin 16) (t : Fin 1024) :
    val_main_v10 (F := Ideal) x0 (ix2 b t) = 0 + ∑ d : Fin 256, x0 (ix3 b t d) * x0 (ix3 b t d) := by
  rw [val_main_v10_apply, val_main_cst_1_apply, Ideal.ofBits_def, Ideal.ofBits_zero_f32]
  simp only [idx10, val_main_v9_apply, Ideal.mulf_def]

/-- The sum of the weights of row t of batch b. -/
theorem v11_at (b : Fin 16) (t : Fin 1024) :
    val_main_v11 (F := Ideal) x1 x2 (ix2 b t)
      = 0 + ∑ s : Fin 1024, Spec.rW (fun b t s k => x1 (ix4 b t s k)) (fun k => x2 (ix1 k)) b t s := by
  rw [val_main_v11_apply, val_main_cst_2_apply, Ideal.ofBits_def, Ideal.ofBits_zero_f32]
  simp only [idx11, v8_at]

/-- The batched product of the weights with z. -/
theorem v12_at (b : Fin 16) (t : Fin 1024) (d : Fin 256) :
    val_main_v12 (F := Ideal) x0 x1 x2 (ix3 b t d)
      = ∑ s : Fin 1024, Spec.rW (fun b t s k => x1 (ix4 b t s k)) (fun k => x2 (ix1 k)) b t s * x0 (ix3 b s d) := by
  rw [val_main_v12_apply]
  simp only [lidx12, ridx12, v8_at]

/-- The first per-batch sum: over the rows, the squared norm times the sum of the weights. -/
theorem v14_at (b : Fin 16) :
    val_main_v14 (F := Ideal) x0 x1 x2 (ix1 b)
      = 0 + ∑ t : Fin 1024, (0 + ∑ d : Fin 256, x0 (ix3 b t d) * x0 (ix3 b t d))
          * (0 + ∑ s : Fin 1024, Spec.rW (fun b t s k => x1 (ix4 b t s k)) (fun k => x2 (ix1 k)) b t s) := by
  rw [val_main_v14_apply, val_main_cst_3_apply, Ideal.ofBits_def, Ideal.ofBits_zero_f32]
  simp only [idx14, val_main_v13_apply, Ideal.mulf_def, v10_at, v11_at]

/-- Twice the first per-batch sum. -/
theorem v16_at (b : Fin 16) :
    val_main_v16 (F := Ideal) x0 x1 x2 (ix1 b)
      = Spec.c2 * (0 + ∑ t : Fin 1024, (0 + ∑ d : Fin 256, x0 (ix3 b t d) * x0 (ix3 b t d))
          * (0 + ∑ s : Fin 1024, Spec.rW (fun b t s k => x1 (ix4 b t s k)) (fun k => x2 (ix1 k)) b t s)) := by
  rw [val_main_v16_apply, val_main_v15_apply, val_main_cst_4_apply, v14_at]; rfl

/-- The product with z again. -/
theorem v17_at (b : Fin 16) (t : Fin 1024) (d : Fin 256) :
    val_main_v17 (F := Ideal) x0 x1 x2 (ix3 b t d)
      = (∑ s : Fin 1024, Spec.rW (fun b t s k => x1 (ix4 b t s k)) (fun k => x2 (ix1 k)) b t s * x0 (ix3 b s d))
          * x0 (ix3 b t d) := by
  rw [val_main_v17_apply, v12_at]; rfl

/-- The second per-batch sum: over the rows and the features. -/
theorem v18_at (b : Fin 16) :
    val_main_v18 (F := Ideal) x0 x1 x2 (ix1 b)
      = 0 + ∑ t : Fin 1024, ∑ d : Fin 256,
          (∑ s : Fin 1024, Spec.rW (fun b t s k => x1 (ix4 b t s k)) (fun k => x2 (ix1 k)) b t s * x0 (ix3 b s d))
            * x0 (ix3 b t d) := by
  unfold val_main_v18
  simp only [Host.reduceAdd, Ideal.hostReduceAdd_def]
  rw [hostReduceAdd_rows, val_main_cst_5_apply, Ideal.ofBits_def, Ideal.ofBits_zero_f32]
  simp only [v17_at]

/-- Twice the second per-batch sum. -/
theorem v20_at (b : Fin 16) :
    val_main_v20 (F := Ideal) x0 x1 x2 (ix1 b)
      = Spec.c2 * (0 + ∑ t : Fin 1024, ∑ d : Fin 256,
          (∑ s : Fin 1024, Spec.rW (fun b t s k => x1 (ix4 b t s k)) (fun k => x2 (ix1 k)) b t s * x0 (ix3 b s d))
            * x0 (ix3 b t d)) := by
  rw [val_main_v20_apply, val_main_v19_apply, val_main_cst_6_apply, v18_at]; rfl

/-- The batch's number. -/
theorem v21_at (b : Fin 16) :
    val_main_v21 (F := Ideal) x0 x1 x2 (ix1 b)
      = Spec.c2 * (0 + ∑ t : Fin 1024, (0 + ∑ d : Fin 256, x0 (ix3 b t d) * x0 (ix3 b t d))
          * (0 + ∑ s : Fin 1024, Spec.rW (fun b t s k => x1 (ix4 b t s k)) (fun k => x2 (ix1 k)) b t s))
        - Spec.c2 * (0 + ∑ t : Fin 1024, ∑ d : Fin 256,
          (∑ s : Fin 1024, Spec.rW (fun b t s k => x1 (ix4 b t s k)) (fun k => x2 (ix1 k)) b t s * x0 (ix3 b s d))
            * x0 (ix3 b t d)) := by
  rw [val_main_v21_apply, v16_at, v20_at]; rfl

end Stages

/-- The last stage of the reference's run, at `Ideal`, is `rLoss` of the inputs read at their coordinates. -/
theorem result_eq (x0 : (⟨S16x1024x256, .f32⟩ : BufTy).Contents (Elt Ideal)) (x1 : (⟨S16x1024x1024x4, .f32⟩ : BufTy).Contents (Elt Ideal))
    (x2 : (⟨S4, .f32⟩ : BufTy).Contents (Elt Ideal)) :
    Cert.ReferenceIdeal.Read.val_main_v25 (F := Ideal) x0 x1 x2
      = fun _ => Cert.Spec.rLoss (fun b t d => x0 (ix3 b t d)) (fun b t s k => x1 (ix4 b t s k)) (fun k => x2 (ix1 k)) := by
  funext i
  rw [val_main_v25_apply, val_main_v23_apply, val_main_v22_apply, val_main_v24_apply, val_main_cst_7_apply,
    val_main_cst_8_apply, val_main_cst_9_apply, val_main_cst_10_apply, Ideal.ofBits_def, Ideal.ofBits_zero_f32, sum_idx1]
  simp only [v21_at]
  rfl

end Cert.RefValue

end
-- ==== Proof.PreDecode.lean ====
/-
  What the precondition says of the inputs: every entry of z, of the distance components and of the bandwidths is a
  real number (its absolute value is below +∞), and no bandwidth is zero.
-/
import proofs.«177375_j43052752175789_1_alg».proof.Pre_finite_inputs
import proofs.«177375_j43052752175789_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.PreDecode

open Idealize.ShloMosaic Cert.Pre_finite_inputs

/-- The rank-0 shape has exactly one index. -/
instance : Subsingleton S_.Idx := ⟨fun _ _ => funext fun d => d.elim0⟩

/-- A one-bit word made from a Boolean is 1 exactly when the Boolean is true. -/
theorem ofBool_eq_one {b : Bool} : BitVec.ofBool b = 1#1 ↔ b = true := by cases b <;> decide

/-- The f32 pattern 0x7F800000 is +∞. -/
theorem ofBits_inf_f32 : Ideal.ofBits .f32 0x7F800000#32 = ⊤ := by simp [Ideal.ofBits, Ideal.ieee]

/-- An extended real whose absolute value max x (−x) lies strictly below +∞ is a real number. -/
theorem exists_real_of_abs_lt_top (x : EReal) (h : max x (-x) < ⊤) : ∃ r : ℝ, x = (r : EReal) := by
  induction x using EReal.rec with
  | bot => simp at h
  | coe r => exact ⟨r, rfl⟩
  | top => simp at h

/-- One element of the test |x| < +∞: if it answers 1, the element is real. -/
theorem real_of_abs_olt_inf (x : Ideal .f32)
    (h : FloatOps.cmpf (F := Ideal) (φ := .f32) .olt (FloatOps.hostAbsf x) (FloatOps.ofBits .f32 0x7F800000#32) = 1#1) :
    ∃ r : ℝ, x = (r : EReal) := by
  change BitVec.ofBool (decide (max x (-x) < Ideal.ofBits .f32 0x7F800000#32)) = 1#1 at h
  rw [ofBits_inf_f32, ofBool_eq_one, decide_eq_true_eq] at h
  exact exists_real_of_abs_lt_top x h

/-- One element of the test x ≠ 0: if it answers 1, the element is not zero. -/
theorem ne_zero_of_une_zero (x : Ideal .f32)
    (h : FloatOps.cmpf (F := Ideal) (φ := .f32) .une x (FloatOps.ofBits .f32 0x00000000#32) = 1#1) : x ≠ 0 := by
  change BitVec.ofBool (decide (x ≠ Ideal.ofBits .f32 0x00000000#32)) = 1#1 at h
  rw [Ideal.ofBits_zero_f32, ofBool_eq_one, decide_eq_true_eq] at h
  exact h

/-- The printed precondition, all ones, gives: the three inputs are real-valued and the bandwidths are nonzero. -/
theorem reals_of_pre (x0 : FVec Ideal S16x1024x256 .f32) (x1 : FVec Ideal S16x1024x1024x4 .f32) (x2 : FVec Ideal S4 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal))
      ∧ (∀ i, x2 i ≠ 0) := by
  have h0 := congrFun h ValueIdx.ix0
  dsimp only [Cert.Pre_finite_inputs.fn, Cert.Pre_finite_inputs.fn_part1] at h0
  -- the result bit is the conjunction of the four reductions
  change IntOp.andi (IntOp.andi (IntOp.andi _ _) _) _ = 1#1 at h0
  obtain ⟨h0, h4⟩ := IntOp.andi_eq_one.1 h0
  obtain ⟨h0, h3⟩ := IntOp.andi_eq_one.1 h0
  obtain ⟨h1, h2⟩ := IntOp.andi_eq_one.1 h0
  refine ⟨fun i => ?_, fun i => ?_, fun i => ?_, fun i => ?_⟩
  · exact real_of_abs_olt_inf (x0 i) (Host.reduce_andi_all _ _ _ _ _ h1 i)
  · exact real_of_abs_olt_inf (x1 i) (Host.reduce_andi_all _ _ _ _ _ h2 i)
  · exact real_of_abs_olt_inf (x2 i) (Host.reduce_andi_all _ _ _ _ _ h3 i)
  · exact ne_zero_of_une_zero (x2 i) (Host.reduce_andi_all _ _ _ _ _ h4 i)

end Cert.PreDecode

end
-- ==== Proof.lean ====
/-
  The certificate: a pairwise radial-basis weight kernel fused with a matrix product, against its jnp reference.

  Both programs take z (16 × 1024 × 256), the distance components g (16 × 1024 × 1024 × 4) and four bandwidths σ, and
  return one number: with w(b,t,s) = exp (Σ_k g(b,t,s,k)² / (2 σ_k σ_k)), the mean over all (b, t) of
  2 · |z(b,t)|² · Σ_s w(b,t,s) − 2 · Σ_d (Σ_s w(b,t,s) z(b,s,d)) z(b,t,d), divided by 1024. The kernel multiplies by a
  reciprocal it computed once where the reference divides, works tile by tile over a 16 × 8 grid with z handed in
  twice (all key rows of a batch; the query rows of the tile), writes one number per query row, and sums and scales
  them afterwards; the reference sums per batch. The precondition says every input is finite and no bandwidth is zero
  (at a zero bandwidth the reference itself divides by zero); under it every intermediate is a real number and the two
  results are one real, by linearity of finite sums.

  The three frames: both kernel programs by the launch of their one call between two lines of host operations (the
  same text at the two instances); the reference by its run. The idealization rewrote nothing, so `preserves` is
  trivial. `algebraic`: the kernel's run names its result `kLoss` of the inputs, the reference's run `rLoss`, and the
  two are equal under the precondition.
-/
import proofs.«177375_j43052752175789_1_alg».proof.Defs
import proofs.«177375_j43052752175789_1_alg».proof.Proof.Gen.Kernel
import proofs.«177375_j43052752175789_1_alg».proof.Proof.Gen.KernelIdeal
import proofs.«177375_j43052752175789_1_alg».proof.Proof.Gen.ReferenceIdeal
import proofs.«177375_j43052752175789_1_alg».proof.Proof.Gen.Pre_finite_inputs
import proofs.«177375_j43052752175789_1_alg».proof.Proof.Gen.ReferenceIdeal.Run
import proofs.«177375_j43052752175789_1_alg».proof.Proof.Gen.ReferenceIdeal.Read
import proofs.«177375_j43052752175789_1_alg».proof.Proof.KbRun
import proofs.«177375_j43052752175789_1_alg».proof.Proof.KiValue
import proofs.«177375_j43052752175789_1_alg».proof.Proof.RefValue
import proofs.«177375_j43052752175789_1_alg».proof.Proof.PreDecode
import proofs.«177375_j43052752175789_1_alg».proof.Proof.Spec
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the inputs, under the precondition, both idealized programs end with the same number:
    the kernel's formula and the reference's, equal on real inputs with nonzero bandwidths. -/
theorem algebraic : Cert.algebraic_KernelIdeal_ReferenceIdeal := by
  intro m ρ m' ρ' hpre hagree
  refine ⟨fun c => (fun _ => Cert.Spec.kLoss (Cert.KernelIdeal.Hand.zOf m c) (Cert.KernelIdeal.Hand.gOf m c) (Cert.KernelIdeal.Hand.σOf m c)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨hz, hg, hσ, hσ0⟩ := Cert.PreDecode.reals_of_pre _ _ _ (hpre c)
  rw [Cert.ReferenceIdeal.Read.val_main_v25_eq, Cert.RefValue.result_eq, (hagree c).1, (hagree c).2.1, (hagree c).2.2]
  funext _
  exact (Cert.Spec.kLoss_eq_rLoss _ _ _ (fun b t d => hz (ix3 b t d)) (fun b t s k => hg (ix4 b t s k))
    (fun k => hσ (ix1 k)) (fun k => hσ0 (ix1 k))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
